-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S400x10000, .f32⟩
  | .local _ .vmem, ⟨6, _⟩ => ⟨S400x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v21 : BitVec 32 := Scalar.muli arg0 c400_i32
  let v22 : Index := Scalar.indexCast v21
  let c0_13 : Index := 0#32
  ![v22.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let v2 : BitVec 32 := Scalar.select v0 arg0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S128x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Kernel.Conds.lean ====
/-
  The three conditionals of the kernel body decided over the grid of fifty points, the staging and scratch
  memrefs the body is called with, and the region's class invariant spelt over the two scratch buffers.
  The body takes its first branch at point 0 only (it fills the scratch `y = x · W1ᵀ`), its second at the
  points below 25 (one block of `g` each), its third from point 25 on (one block of the result each).
-/
import proofs.«150624_g46213848105873_cont_8to1_c_498_8_alg».proof.Proof.Gen.Kernel.Frame
import proofs.«150624_g46213848105873_cont_8to1_c_498_8_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-- The first conditional's test, from the grid coordinate: it holds at point 0 only. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The second conditional's test: it holds at the points below 25. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- The third conditional's test: it holds from point 25 on. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The row offset of the block of `g` stored at a point below 25: 400 times the point. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- Each window's current staging memref at point `t`, as the pipeline passes it to the body. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)

/-- The two scratch operands: `y` (the projected features) and `g` (the second layer's operand). -/
abbrev scY : Memref sig .tc .vmem S10000x128 .f32 := Memref.whole cc0_scratch0
abbrev scG : Memref sig .tc .vmem S10000x128 .f32 := Memref.whole cc0_scratch1

/-- The class invariant of the region: both scratch buffers at some contents, the generator register at some state. -/
theorem PhiA_eq (c : Dev nD) :
    (Pipeline.ΦA spec0 c : sProp 𝕄)
      = iprop(iprop((∃ d, owns (c : Thread nD τ) scY fullShare d) ∗ (∃ d, owns (c : Thread nD τ) scG fullShare d)) ∗ (∃ r, prngReg c r)) := by
  unfold Pipeline.ΦA; rw [scopedRest0_eq]; simp only [scY, scG, owns_whole]; try rfl

end Cert.Kernel.Hand

end
-- ==== Proof.Kernel.Carried.lean ====
/-
  What the region carries from point to point, named. After point 0 the scratch `y` holds x · W1ᵀ (one matrix
  product of blocks the pipeline staged whole). After point n < 25 the rows below 400 (n + 1) of the scratch `g`
  hold, block by block of 400 rows, relu(adjacency rows · y + b1) · W2ᵀ; from point 24 on `g` is that one array.
  From point 25 on the body leaves in the output's staging buffer the current adjacency rows · g + b2. Before
  point 25 nothing is said of that buffer: the write-back at point 24 moves whatever it held, and the last point
  writes the same block again.
-/
import proofs.«150624_g46213848105873_cont_8to1_c_498_8_alg».proof.Proof.Kernel.Conds
import Idealize.ShloMosaic.Lib.Pipeline.Value
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N50 : cfg0.N = 50 := N_0

/-- The grid's first point. -/
abbrev t0 : Fin cfg0.N := ⟨0, by rw [N50]; omega⟩

/-- The scratch `y` after the first point: the staged features times the staged first weight. -/
def yv (c : Dev nD) : Vec F S10000x128 .f32 := k0_pay1 (iblk m c 0 t0) (iblk m c 1 t0)

/-- Block `k` of the scratch `g`: what the body computes at point `k` from that point's adjacency rows and `y`. -/
def gblk (c : Dev nD) (k : ℕ) (hk : k < cfg0.N) : Vec F S400x128 .f32 :=
  k0_pay2 (iblk m c 5 ⟨k, hk⟩) (yv m c) (iblk m c 2 ⟨k, hk⟩) (iblk m c 3 ⟨k, hk⟩)

theorem gblk_congr (c : Dev nD) {k k' : ℕ} (h : k = k') (hk : k < cfg0.N) (hk' : k' < cfg0.N) :
    gblk m c k hk = gblk m c k' hk' := by subst h; rfl

theorem row_lt (idx : S10000x128.Idx) : (idx 0).val < 10000 := (idx 0).isLt
theorem col_lt (idx : S10000x128.Idx) : (idx 1).val < 128 := (idx 1).isLt

/-- The scratch `g` as one array: row `r` lies in block `r / 400`, at row `r % 400` of it. -/
def gArr (c : Dev nD) : Vec F S10000x128 .f32 := fun idx =>
  gblk m c ((idx 0).val / 400) (by rw [N50]; have := row_lt idx; omega)
    (ix2 (⟨(idx 0).val % 400, Nat.mod_lt _ (by omega)⟩ : Fin 400) (⟨(idx 1).val, col_lt idx⟩ : Fin 128))

/-- What the body leaves in the output's staging buffer at a point from 25 on. -/
def oblk (c : Dev nD) (t : Fin cfg0.N) : Vec F S400x128 .f32 := k0_pay3 (iblk m c 5 t) (gArr m c) (iblk m c 4 t)

/-- The rows below 400 (n + 1) of `d` are those of `g`. -/
def Ginv (c : Dev nD) (n : ℕ) (d : Vec F S10000x128 .f32) : Prop :=
  ∀ idx : S10000x128.Idx, (idx 0).val < 400 * (n + 1) → d idx = gArr m c idx

theorem Ginv_full (c : Dev nD) {n : ℕ} (hn : 24 ≤ n) {d : Vec F S10000x128 .f32} (h : Ginv m c n d) : d = gArr m c :=
  funext fun idx => h idx (by have := row_lt idx; nlinarith)

theorem Ginv_gArr (c : Dev nD) (n : ℕ) : Ginv m c n (gArr m c) := fun _ _ => rfl

/-- The block stored at a point below 25 extends the rows of `g` by one block: an index in rows [400 t, 400 t + 400)
    reads the new block, which is `g`'s there; any other reads what was there before. -/
theorem Ginv_step (c : Dev nD) (t : Fin cfg0.N) (ht : t.val < 25) (h1 : cond1 (grid0.coords t)) (d : Vec F S10000x128 .f32)
    (hprev : t.val ≠ 0 → Ginv m c (t.val - 1) d) :
    Ginv m c t.val (scG.view.read (Elt F) (scG.view.writes (Elt F) ((Memref.isWhole_whole cc0_scratch1).unread d)
      [⟨Rect.unit (s := S10000x128) (k0_off1 (grid0.coords t)) S400x128.size (k0_off1_inb (grid0.coords t) h1), gblk m c t.val t.isLt⟩])) := by
  intro idx hidx
  refine (View.read_writes_cons_rows (d := ![10000, 128]) (off := k0_off1 (grid0.coords t)) (size := S400x128.size)
    (o := 400 * t.val) (W := 400) scG.view ((Memref.isWhole_whole cc0_scratch1).unread d) (k0_off1_inb (grid0.coords t) h1)
    (gblk m c t.val t.isLt) [] idx (off1_eq t ht) rfl rfl).trans ?_
  split
  · next h =>
    unfold gArr
    have hq : (idx 0).val / 400 = t.val := by omega
    rw [gblk_congr m c hq _ t.isLt]
    congr 1
    apply Shape.idx_ext₂
    · show (idx 0).val - 400 * t.val = (idx 0).val % 400; omega
    · show (idx 1).val - 0 = (idx 1).val; omega
  · next h =>
    rw [View.writes_nil, (Memref.isWhole_whole cc0_scratch1).read_unread]
    have h0 : t.val ≠ 0 := by omega
    exact hprev h0 idx (by omega)

/-- The relational proof data of the region on core `c`: the arrays as the region finds them; every input's staging
    buffer left as found; the output's staging buffer, from point 25 on, left at `oblk` (before that, at anything);
    the invariant `PhiS` below; full shares, nothing owed. -/
def PhiS (c : Dev nD) : (n : ℕ) → n ≤ cfg0.N → sProp 𝕄
  | 0, _ => Pipeline.ΦA spec0 c
  | n + 1, _ => iprop(iprop(owns (c : Thread nD τ) scY fullShare (yv m c) ∗ (∃ d, ⌜Ginv m c n d⌝ ∗ owns (c : Thread nD τ) scG fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scY fullShare (yv m c) ∗ (∃ d, ⌜Ginv m c n d⌝ ∗ owns (c : Thread nD τ) scG fullShare d)) ∗ (∃ r, prngReg c r)) := rfl

theorem PhiS_pos (c : Dev nD) (n : ℕ) (h : n ≤ cfg0.N) (hz : n ≠ 0) :
    PhiS m c n h = iprop(iprop(owns (c : Thread nD τ) scY fullShare (yv m c) ∗ (∃ d, ⌜Ginv m c (n - 1) d⌝ ∗ owns (c : Thread nD τ) scG fullShare d)) ∗ (∃ r, prngReg c r)) := by
  cases n with
  | zero => exact absurd rfl hz
  | succ n => rfl

def rd (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => 25 ≤ t.val → X = oblk m c t
  Φ t := PhiS m c t.val (Nat.le_of_lt_succ t.isLt)
  q _ := fullShare
  owed _ := 0

theorem A_eq (c : Dev nD) (w : Fin cfg0.W) : (rd m c).A w = V m c (Pipeline.arrRef spec0 w) := rfl

theorem Phi_castSucc (c : Dev nD) (t : Fin cfg0.N) : (rd m c).Φ t.castSucc = PhiS m c t.val (Nat.le_of_lt t.isLt) := by
  dsimp only [rd]; simp only [Fin.coe_castSucc]

theorem Phi_succ (c : Dev nD) (t : Fin cfg0.N) : (rd m c).Φ t.succ = PhiS m c (t.val + 1) t.isLt := rfl

theorem after_out (c : Dev nD) (t : Fin cfg0.N) (Y X : S400x128.Idx → Elt F .f32) :
    (rd m c).after 6 t Y X = (25 ≤ t.val → X = oblk m c t) := rfl

/-- Whatever the body finds in an input's staging buffer is that input's block at the point. -/
theorem finds0 (c : Dev nD) (t : Fin cfg0.N) (Y) (h : (rd m c).Finds 0 t Y) : Y = iblk m c 0 t := by
  obtain ⟨d, hd⟩ := (rd m c).finds_in_eq_fetched 0 rfl (fun _ _ _ => rfl) (fun _ _ _ h => h) t Y h
  exact hd.trans (by unfold RDat.fetched RDat.blockOf iblk; rfl)
theorem finds1 (c : Dev nD) (t : Fin cfg0.N) (Y) (h : (rd m c).Finds 1 t Y) : Y = iblk m c 1 t := by
  obtain ⟨d, hd⟩ := (rd m c).finds_in_eq_fetched 1 rfl (fun _ _ _ => rfl) (fun _ _ _ h => h) t Y h
  exact hd.trans (by unfold RDat.fetched RDat.blockOf iblk; rfl)
theorem finds2 (c : Dev nD) (t : Fin cfg0.N) (Y) (h : (rd m c).Finds 2 t Y) : Y = iblk m c 2 t := by
  obtain ⟨d, hd⟩ := (rd m c).finds_in_eq_fetched 2 rfl (fun _ _ _ => rfl) (fun _ _ _ h => h) t Y h
  exact hd.trans (by unfold RDat.fetched RDat.blockOf iblk; rfl)
theorem finds3 (c : Dev nD) (t : Fin cfg0.N) (Y) (h : (rd m c).Finds 3 t Y) : Y = iblk m c 3 t := by
  obtain ⟨d, hd⟩ := (rd m c).finds_in_eq_fetched 3 rfl (fun _ _ _ => rfl) (fun _ _ _ h => h) t Y h
  exact hd.trans (by unfold RDat.fetched RDat.blockOf iblk; rfl)
theorem finds4 (c : Dev nD) (t : Fin cfg0.N) (Y) (h : (rd m c).Finds 4 t Y) : Y = iblk m c 4 t := by
  obtain ⟨d, hd⟩ := (rd m c).finds_in_eq_fetched 4 rfl (fun _ _ _ => rfl) (fun _ _ _ h => h) t Y h
  exact hd.trans (by unfold RDat.fetched RDat.blockOf iblk; rfl)
theorem finds5 (c : Dev nD) (t : Fin cfg0.N) (Y) (h : (rd m c).Finds 5 t Y) : Y = iblk m c 5 t := by
  obtain ⟨d, hd⟩ := (rd m c).finds_in_eq_fetched 5 rfl (fun _ _ _ => rfl) (fun _ _ _ h => h) t Y h
  exact hd.trans (by unfold RDat.fetched RDat.blockOf iblk; rfl)

end Cert.Kernel.Hand

end
-- ==== Proof.Kernel.RunFirst.lean ====
/-
  The body at point 0 (the first two conditionals taken): it fills the whole scratch `y` with x · W1ᵀ, then
  — reading `y` back — computes the first block of `g` exactly as at the later points and stores it into
  rows [0, 400) of the scratch `g`. The scratch `y` comes back holding x · W1ᵀ, the scratch `g` as its former
  contents overwritten by that one block.
-/
import proofs.«150624_g46213848105873_cont_8to1_c_498_8_alg».proof.Proof.Kernel.Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

set_option maxHeartbeats 1000000 in
theorem run_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x10000 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x128 .f32) (harg9 : arg9.IsWhole) (hc0 : cond0 i) (hc1 : cond1 i) (hc2 : ¬cond2 i)
    (x0 : Vec F S10000x128 .f32) (x1 : Vec F S128x128 .f32) (x2 : Vec F S1x128 .f32) (x3 : Vec F S128x128 .f32) (x4 : Vec F S1x128 .f32) (x5 : Vec F S400x10000 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (k0_pay1 x0 x1)
            ∗ owns (c : Thread nD τ) arg9 fullShare (arg9.view.read (Elt F) (arg9.view.writes (Elt F) (harg9.unread xs1)
                [⟨Rect.unit (s := S10000x128) (k0_off1 i) S400x128.size (k0_off1_inb i hc1), k0_pay2 x5 (k0_pay1 x0 x1) x2 x3⟩]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
  sl_exec (disch := first | exact hc0 | exact hc1 | exact hc2)
  sl_step
  sl_unfold_words
  have e1 : View.readAt (Elt F) arg1.view (Rect.unit ![0, 0] S10000x128.size inb_S10000x128_S10000x128_0_0).toLoadRect (harg1.unread x0) = x0 := by
    rw [View.readAt_eq_ld, harg1.read_unread, View.ld_unit_zero (S := S10000x128) zero2]
  have e2 : View.readAt (Elt F) arg2.view (Rect.unit ![0, 0] S128x128.size inb_S128x128_S128x128_0_0).toLoadRect (harg2.unread x1) = x1 := by
    rw [View.readAt_eq_ld, harg2.read_unread, View.ld_unit_zero (S := S128x128) zero2]
  have e6 : View.readAt (Elt F) arg6.view (Rect.unit ![0, 0] S400x10000.size inb_S400x10000_S400x10000_0_0).toLoadRect (harg6.unread x5) = x5 := by
    rw [View.readAt_eq_ld, harg6.read_unread, View.ld_unit_zero (S := S400x10000) zero2]
  have e3 : View.readAt (Elt F) arg3.view (Rect.unit ![0, 0] S1x128.size inb_S1x128_S1x128_0_0).toLoadRect (harg3.unread x2) = x2 := by
    rw [View.readAt_eq_ld, harg3.read_unread, View.ld_unit_zero (S := S1x128) zero2]
  have e4 : View.readAt (Elt F) arg4.view (Rect.unit ![0, 0] S128x128.size inb_S128x128_S128x128_0_0).toLoadRect (harg4.unread x3) = x3 := by
    rw [View.readAt_eq_ld, harg4.read_unread, View.ld_unit_zero (S := S128x128) zero2]
  simp only [e1, e2, e6, e3, e4, View.readCov_unit_zero (S := S10000x128) _ zero2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [HS0]
  · iexists _; isplitr; swap; · iexact HS0
    ipureintro
    rw [View.read_writes_eq_canon _ _ _ (fun y => View.cover_of_tiledL _ S10000x128.size (by sl_kernel_rfl) y),
      View.canon_unit_zero (S := S10000x128) zero2]
  iexists _; isplitr; swap; · iexact HS1
  ipureintro; rfl

end Cert.Kernel.Hand

end
-- ==== Proof.Kernel.RunFill.lean ====
/-
  The body at a point 0 < t < 25 (only the second conditional taken): it multiplies the current 400 rows of the
  adjacency by the carried scratch `y`, adds the first bias, clamps below at zero, multiplies by the second
  weight, and stores the 400 × 128 result into rows [400 t, 400 t + 400) of the scratch `g`; everything else
  is handed back as found. The scratch `g` comes back as its former contents overwritten by that one block.
-/
import proofs.«150624_g46213848105873_cont_8to1_c_498_8_alg».proof.Proof.Kernel.Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

set_option maxHeartbeats 1000000 in
theorem run_fill (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x10000 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x128 .f32) (harg9 : arg9.IsWhole) (hc0 : ¬cond0 i) (hc1 : cond1 i) (hc2 : ¬cond2 i)
    (x0 : Vec F S10000x128 .f32) (x1 : Vec F S128x128 .f32) (x2 : Vec F S1x128 .f32) (x3 : Vec F S128x128 .f32) (x4 : Vec F S1x128 .f32) (x5 : Vec F S400x10000 .f32) (xs0 xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ owns (c : Thread nD τ) arg9 fullShare (arg9.view.read (Elt F) (arg9.view.writes (Elt F) (harg9.unread xs1)
                [⟨Rect.unit (s := S10000x128) (k0_off1 i) S400x128.size (k0_off1_inb i hc1), k0_pay2 x5 xs0 x2 x3⟩]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  have e6 : View.readAt (Elt F) arg6.view (Rect.unit ![0, 0] S400x10000.size inb_S400x10000_S400x10000_0_0).toLoadRect (harg6.unread x5) = x5 := by
    rw [View.readAt_eq_ld, harg6.read_unread, View.ld_unit_zero (S := S400x10000) zero2]
  have e8 : View.readAt (Elt F) arg8.view (Rect.unit ![0, 0] S10000x128.size inb_S10000x128_S10000x128_0_0).toLoadRect (harg8.unread xs0) = xs0 := by
    rw [View.readAt_eq_ld, harg8.read_unread, View.ld_unit_zero (S := S10000x128) zero2]
  have e3 : View.readAt (Elt F) arg3.view (Rect.unit ![0, 0] S1x128.size inb_S1x128_S1x128_0_0).toLoadRect (harg3.unread x2) = x2 := by
    rw [View.readAt_eq_ld, harg3.read_unread, View.ld_unit_zero (S := S1x128) zero2]
  have e4 : View.readAt (Elt F) arg4.view (Rect.unit ![0, 0] S128x128.size inb_S128x128_S128x128_0_0).toLoadRect (harg4.unread x3) = x3 := by
    rw [View.readAt_eq_ld, harg4.read_unread, View.ld_unit_zero (S := S128x128) zero2]
  rw [e6, e8, e3, e4]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [HS0]
  · iexists _; isplitr; · ipureintro; exact harg8.read_unread _
    iexact HS0
  iexists _; isplitr; swap; · iexact HS1
  ipureintro; rfl

end Cert.Kernel.Hand

end
-- ==== Proof.Kernel.RunOut.lean ====
/-
  The body at a point t ≥ 25 (only the third conditional taken): it multiplies the current 400 rows of the
  adjacency by the whole scratch `g`, adds the second bias, and stores the 400 × 128 result over the whole
  output staging buffer; both scratch buffers and the inputs are handed back as found.
-/
import proofs.«150624_g46213848105873_cont_8to1_c_498_8_alg».proof.Proof.Kernel.Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

set_option maxHeartbeats 1000000 in
theorem run_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x10000 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x128 .f32) (harg9 : arg9.IsWhole) (hc0 : ¬cond0 i) (hc1 : ¬cond1 i) (hc2 : cond2 i)
    (x0 : Vec F S10000x128 .f32) (x1 : Vec F S128x128 .f32) (x2 : Vec F S1x128 .f32) (x3 : Vec F S128x128 .f32) (x4 : Vec F S1x128 .f32) (x5 : Vec F S400x10000 .f32) (xs0 xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay3 x5 xs1 x4) ∗ owns (c : Thread nD τ) arg8 fullShare xs0
            ∗ owns (c : Thread nD τ) arg9 fullShare xs1) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  have e6 : View.readAt (Elt F) arg6.view (Rect.unit ![0, 0] S400x10000.size inb_S400x10000_S400x10000_0_0).toLoadRect (harg6.unread x5) = x5 := by
    rw [View.readAt_eq_ld, harg6.read_unread, View.ld_unit_zero (S := S400x10000) zero2]
  have e9 : View.readAt (Elt F) arg9.view (Rect.unit ![0, 0] S10000x128.size inb_S10000x128_S10000x128_0_0).toLoadRect (harg9.unread xs1) = xs1 := by
    rw [View.readAt_eq_ld, harg9.read_unread, View.ld_unit_zero (S := S10000x128) zero2]
  have e5 : View.readAt (Elt F) arg5.view (Rect.unit ![0, 0] S1x128.size inb_S1x128_S1x128_0_0).toLoadRect (harg5.unread x4) = x4 := by
    rw [View.readAt_eq_ld, harg5.read_unread, View.ld_unit_zero (S := S1x128) zero2]
  rw [e6, e9, e5]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [View.read_writes_eq_canon _ _ _ (fun y => View.cover_of_tiledL _ S400x128.size (by sl_kernel_rfl) y),
      View.canon_unit_zero zero2]
  isplitl [HS0]
  · iexists _; isplitr; · ipureintro; exact harg8.read_unread _
    iexact HS0
  iexists _; isplitr; · ipureintro; exact harg9.read_unread _
  iexact HS1

end Cert.Kernel.Hand

end
-- ==== Proof.Kernel.Body.lean ====
/-
  The body obligation of the region over the relational proof data: at every point, from the invariant and the
  staging buffers at what the body may find there, the kernel's body runs to the invariant at the next point
  and hands each buffer back in the data's relation. Point 0 fills `y` and the first block of `g`; the points
  below 25 add one block of `g` each; from point 25 on `g` is complete and the output's buffer is left at the
  point's block of the result.
-/
import proofs.«150624_g46213848105873_cont_8to1_c_498_8_alg».proof.Proof.Kernel.Carried
import proofs.«150624_g46213848105873_cont_8to1_c_498_8_alg».proof.Proof.Kernel.RunFirst
import proofs.«150624_g46213848105873_cont_8to1_c_498_8_alg».proof.Proof.Kernel.RunFill
import proofs.«150624_g46213848105873_cont_8to1_c_498_8_alg».proof.Proof.Kernel.RunOut

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t`: the inputs' buffers at their blocks, the output's at `Y6`. -/
def bodyPre (c : Dev nD) (t : Fin cfg0.N) (Y6 : S400x128.Idx → Elt F .f32) : sProp 𝕄 :=
  iprop((rd m c).Φ t.castSucc ∗ (rd m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare Y6)

/-- What it returns: every buffer at some contents in the data's relation to what it was handed. -/
def bodyPost (c : Dev nD) (t : Fin cfg0.N) (Y6 : S400x128.Idx → Elt F .f32) : sProp 𝕄 :=
  iprop((rd m c).Φ t.succ ∗ (rd m c).owesAt () t.succ
    ∗ (∃ X, ⌜(rd m c).after 0 t (iblk m c 0 t) X⌝ ∗ owns (c : Thread nD τ) (ms0 t) fullShare X)
    ∗ (∃ X, ⌜(rd m c).after 1 t (iblk m c 1 t) X⌝ ∗ owns (c : Thread nD τ) (ms1 t) fullShare X)
    ∗ (∃ X, ⌜(rd m c).after 2 t (iblk m c 2 t) X⌝ ∗ owns (c : Thread nD τ) (ms2 t) fullShare X)
    ∗ (∃ X, ⌜(rd m c).after 3 t (iblk m c 3 t) X⌝ ∗ owns (c : Thread nD τ) (ms3 t) fullShare X)
    ∗ (∃ X, ⌜(rd m c).after 4 t (iblk m c 4 t) X⌝ ∗ owns (c : Thread nD τ) (ms4 t) fullShare X)
    ∗ (∃ X, ⌜(rd m c).after 5 t (iblk m c 5 t) X⌝ ∗ owns (c : Thread nD τ) (ms5 t) fullShare X)
    ∗ (∃ X, ⌜(rd m c).after 6 t Y6 X⌝ ∗ owns (c : Thread nD τ) (ms6 t) fullShare X))

set_option maxHeartbeats 4000000 in
theorem sound_body (c : Dev nD) (t : Fin cfg0.N) (Y6 : S400x128.Idx → Elt F .f32) :
    bodyPre m c t Y6 ⊢ wp frame (wpE (defs₀ (F := F)) Variants.none c none) Set.univ (bodyAt0 t) (fun _ => bodyPost m c t Y6) := by
  unfold bodyPre bodyPost bodyAt0
  rw [show (rd m c).owesAt () t.succ = (rd m c).owesAt () t.castSucc from rfl, Phi_succ, PhiS_succ, Phi_castSucc]
  have hN : t.val < 50 := lt_of_lt_of_eq t.isLt N50
  by_cases h0 : t.val = 0
  · have ht0 : t = t0 := Fin.ext h0
    subst ht0
    rw [PhiS_zero m c _ _ rfl, PhiA_eq]
    have hc1 : cond1 (grid0.coords t0) := (hcond1 t0).mpr (by decide)
    iintro ⟨⟨⟨HS0, ⟨%d1, HS1⟩⟩, Hg⟩, Ho, H0, H1, H2, H3, H4, H5, H6⟩
    iapply (run_first c (grid0.coords t0) _ _ _ _ _ _ _ _ _ _ _ _ _ _ _ _ _ _ ((hcond0 t0).mpr rfl) hc1 (fun h => absurd ((hcond2 t0).mp h) (by decide))
      (iblk m c 0 t0) (iblk m c 1 t0) (iblk m c 2 t0) (iblk m c 3 t0) (iblk m c 4 t0) (iblk m c 5 t0) d1 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _; iexact H6
    isplitl [HS0]
    · iexact HS0
    isplitl [HS1]
    · iexact HS1
    iintro ⟨H0, H1, H2, H3, H4, H5, ⟨%d6, H6⟩, HS0, HS1⟩
    isplitl [HS0 HS1 Hg]
    · isplitl [HS0 HS1]
      · isplitl [HS0]
        · iexact HS0
        iexists _; isplitr
        · ipureintro
          exact Ginv_step m c t0 (by decide) hc1 d1 (fun h => absurd rfl h)
        iexact HS1
      iexact Hg
    isplitl [Ho]
    · iexact Ho
    isplitl [H0]
    · iexists _; isplitr
      · ipureintro; rfl
      iexact H0
    isplitl [H1]
    · iexists _; isplitr
      · ipureintro; rfl
      iexact H1
    isplitl [H2]
    · iexists _; isplitr
      · ipureintro; rfl
      iexact H2
    isplitl [H3]
    · iexists _; isplitr
      · ipureintro; rfl
      iexact H3
    isplitl [H4]
    · iexists _; isplitr
      · ipureintro; rfl
      iexact H4
    isplitl [H5]
    · iexists _; isplitr
      · ipureintro; rfl
      iexact H5
    iexists d6; isplitr
    · ipureintro; intro h; exact absurd h (by decide)
    iexact H6
  · rw [PhiS_pos m c _ _ h0]
    by_cases h1 : t.val < 25
    · have hc1 : cond1 (grid0.coords t) := (hcond1 t).mpr h1
      iintro ⟨⟨⟨HS0, ⟨%d1, %hd1, HS1⟩⟩, Hg⟩, Ho, H0, H1, H2, H3, H4, H5, H6⟩
      iapply (run_fill c (grid0.coords t) _ _ _ _ _ _ _ _ _ _ _ _ _ _ _ _ _ _ (fun h => h0 ((hcond0 t).mp h)) hc1 (fun h => absurd ((hcond2 t).mp h) (by omega))
        (iblk m c 0 t) (iblk m c 1 t) (iblk m c 2 t) (iblk m c 3 t) (iblk m c 4 t) (iblk m c 5 t) (yv m c) d1 Set.univ _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexists _; iexact H6
      isplitl [HS0]
      · iexact HS0
      isplitl [HS1]
      · iexact HS1
      iintro ⟨H0, H1, H2, H3, H4, H5, ⟨%d6, H6⟩, HS0, HS1⟩
      isplitl [HS0 HS1 Hg]
      · isplitl [HS0 HS1]
        · isplitl [HS0]
          · iexact HS0
          iexists _; isplitr
          · ipureintro
            exact Ginv_step m c t h1 hc1 d1 (fun _ => hd1)
          iexact HS1
        iexact Hg
      isplitl [Ho]
      · iexact Ho
      isplitl [H0]
      · iexists _; isplitr
        · ipureintro; rfl
        iexact H0
      isplitl [H1]
      · iexists _; isplitr
        · ipureintro; rfl
        iexact H1
      isplitl [H2]
      · iexists _; isplitr
        · ipureintro; rfl
        iexact H2
      isplitl [H3]
      · iexists _; isplitr
        · ipureintro; rfl
        iexact H3
      isplitl [H4]
      · iexists _; isplitr
        · ipureintro; rfl
        iexact H4
      isplitl [H5]
      · iexists _; isplitr
        · ipureintro; rfl
        iexact H5
      iexists d6; isplitr
      · ipureintro; intro h; exact absurd h (by omega)
      iexact H6
    · iintro ⟨⟨⟨HS0, ⟨%d1, %hd1, HS1⟩⟩, Hg⟩, Ho, H0, H1, H2, H3, H4, H5, H6⟩
      obtain rfl := Ginv_full m c (n := t.val - 1) (by omega) hd1
      iapply (run_out c (grid0.coords t) _ _ _ _ _ _ _ _ _ _ _ _ _ _ _ _ _ _ (fun h => h0 ((hcond0 t).mp h)) (fun h => h1 ((hcond1 t).mp h)) ((hcond2 t).mpr (by omega))
        (iblk m c 0 t) (iblk m c 1 t) (iblk m c 2 t) (iblk m c 3 t) (iblk m c 4 t) (iblk m c 5 t) (yv m c) (gArr m c) Set.univ _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexists _; iexact H6
      isplitl [HS0]
      · iexact HS0
      isplitl [HS1]
      · iexact HS1
      iintro ⟨H0, H1, H2, H3, H4, H5, H6, HS0, HS1⟩
      isplitl [HS0 HS1 Hg]
      · isplitl [HS0 HS1]
        · isplitl [HS0]
          · iexact HS0
          iexists _; isplitr
          · ipureintro
            exact Ginv_gArr m c t.val
          iexact HS1
        iexact Hg
      isplitl [Ho]
      · iexact Ho
      isplitl [H0]
      · iexists _; isplitr
        · ipureintro; rfl
        iexact H0
      isplitl [H1]
      · iexists _; isplitr
        · ipureintro; rfl
        iexact H1
      isplitl [H2]
      · iexists _; isplitr
        · ipureintro; rfl
        iexact H2
      isplitl [H3]
      · iexists _; isplitr
        · ipureintro; rfl
        iexact H3
      isplitl [H4]
      · iexists _; isplitr
        · ipureintro; rfl
        iexact H4
      isplitl [H5]
      · iexists _; isplitr
        · ipureintro; rfl
        iexact H5
      iexists _; isplitr
      · ipureintro; intro _; rfl
      iexact H6

/-- The body obligation of the relational data, at every point. -/
theorem body_obligation (c : Dev nD) : (rd m c).BodyObligation (defs₀ (F := F)) Variants.none () Set.univ := fun t Y hY => by
  rw [bigSep_W0, bigSep_W0]
  rw [finds0 m c t (Y 0) (hY 0), finds1 m c t (Y 1) (hY 1), finds2 m c t (Y 2) (hY 2), finds3 m c t (Y 3) (hY 3),
    finds4 m c t (Y 4) (hY 4), finds5 m c t (Y 5) (hY 5)]
  exact sound_body m c t (Y 6)

end Cert.Kernel.Hand

end
-- ==== Proof.Kernel.Launch.lean ====
/-
  The region's run over the relational proof data, and the frame: every weakly fair execution of @main
  terminates without a fault, each input array of the pipeline ends as the region found it, and every other
  unscoped buffer too; the output's array ends in the data's relation to its entry contents (read in the value
  part, where there is one).
-/
import proofs.«150624_g46213848105873_cont_8to1_c_498_8_alg».proof.Proof.Kernel.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the class's. -/
theorem hin (c : Dev nD) : Pipeline.ΦA spec0 c ⊢ (rd m c).Φ 0 := by
  rw [show (rd m c).Φ 0 = PhiS m c 0 (Nat.zero_le _) from rfl, PhiS_zero m c 0 _ rfl]
  try exact Idealize.SL.BI.Entails.refl _

/-- After the last point it gives the class's back: what the two scratch buffers hold is forgotten. -/
theorem hout (c : Dev nD) : (rd m c).Φ (Fin.last cfg0.N) ⊢ Pipeline.ΦA spec0 c := by
  rw [show (rd m c).Φ (Fin.last cfg0.N) = PhiS m c (Fin.last cfg0.N).val (Nat.le_of_lt_succ (Fin.last cfg0.N).isLt) from rfl,
    PhiS_pos m c _ _ (by rw [Fin.val_last, N50]; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- The run: every array of the pipeline ends at contents the relational data allow after every write-back, every
    other unscoped buffer at its region-entry contents. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((A_eq m c 0).trans (V_main_arg0 m c)),
      (Pipeline.RDat.FramePost.arr_in h c 5 rfl).trans ((A_eq m c 5).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Hand

end
-- ==== Proof.KernelIdeal.Conds.lean ====
/-
  The three conditionals of the kernel body decided over the grid of fifty points, the staging and scratch
  memrefs the body is called with, and the region's class invariant spelt over the two scratch buffers.
  The body takes its first branch at point 0 only (it fills the scratch `y = x · W1ᵀ`), its second at the
  points below 25 (one block of `g` each), its third from point 25 on (one block of the result each).
-/
import proofs.«150624_g46213848105873_cont_8to1_c_498_8_alg».proof.Proof.Gen.KernelIdeal.Frame
import proofs.«150624_g46213848105873_cont_8to1_c_498_8_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-- The first conditional's test, from the grid coordinate: it holds at point 0 only. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The second conditional's test: it holds at the points below 25. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- The third conditional's test: it holds from point 25 on. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The row offset of the block of `g` stored at a point below 25: 400 times the point. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- Each window's current staging memref at point `t`, as the pipeline passes it to the body. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)

/-- The two scratch operands: `y` (the projected features) and `g` (the second layer's operand). -/
abbrev scY : Memref sig .tc .vmem S10000x128 .f32 := Memref.whole cc0_scratch0
abbrev scG : Memref sig .tc .vmem S10000x128 .f32 := Memref.whole cc0_scratch1

/-- The class invariant of the region: both scratch buffers at some contents, the generator register at some state. -/
theorem PhiA_eq (c : Dev nD) :
    (Pipeline.ΦA spec0 c : sProp 𝕄)
      = iprop(iprop((∃ d, owns (c : Thread nD τ) scY fullShare d) ∗ (∃ d, owns (c : Thread nD τ) scG fullShare d)) ∗ (∃ r, prngReg c r)) := by
  unfold Pipeline.ΦA; rw [scopedRest0_eq]; simp only [scY, scG, owns_whole]; try rfl

end Cert.KernelIdeal.Hand

end
-- ==== Proof.KernelIdeal.Carried.lean ====
/-
  What the region carries from point to point, named. After point 0 the scratch `y` holds x · W1ᵀ (one matrix
  product of blocks the pipeline staged whole). After point n < 25 the rows below 400 (n + 1) of the scratch `g`
  hold, block by block of 400 rows, relu(adjacency rows · y + b1) · W2ᵀ; from point 24 on `g` is that one array.
  From point 25 on the body leaves in the output's staging buffer the current adjacency rows · g + b2. Before
  point 25 nothing is said of that buffer: the write-back at point 24 moves whatever it held, and the last point
  writes the same block again.
-/
import proofs.«150624_g46213848105873_cont_8to1_c_498_8_alg».proof.Proof.KernelIdeal.Conds
import Idealize.ShloMosaic.Lib.Pipeline.Value
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N50 : cfg0.N = 50 := N_0

/-- The grid's first point. -/
abbrev t0 : Fin cfg0.N := ⟨0, by rw [N50]; omega⟩

/-- The scratch `y` after the first point: the staged features times the staged first weight. -/
def yv (c : Dev nD) : Vec F S10000x128 .f32 := k0_pay1 (iblk m c 0 t0) (iblk m c 1 t0)

/-- Block `k` of the scratch `g`: what the body computes at point `k` from that point's adjacency rows and `y`. -/
def gblk (c : Dev nD) (k : ℕ) (hk : k < cfg0.N) : Vec F S400x128 .f32 :=
  k0_pay2 (iblk m c 5 ⟨k, hk⟩) (yv m c) (iblk m c 2 ⟨k, hk⟩) (iblk m c 3 ⟨k, hk⟩)

theorem gblk_congr (c : Dev nD) {k k' : ℕ} (h : k = k') (hk : k < cfg0.N) (hk' : k' < cfg0.N) :
    gblk m c k hk = gblk m c k' hk' := by subst h; rfl

theorem row_lt (idx : S10000x128.Idx) : (idx 0).val < 10000 := (idx 0).isLt
theorem col_lt (idx : S10000x128.Idx) : (idx 1).val < 128 := (idx 1).isLt

/-- The scratch `g` as one array: row `r` lies in block `r / 400`, at row `r % 400` of it. -/
def gArr (c : Dev nD) : Vec F S10000x128 .f32 := fun idx =>
  gblk m c ((idx 0).val / 400) (by rw [N50]; have := row_lt idx; omega)
    (ix2 (⟨(idx 0).val % 400, Nat.mod_lt _ (by omega)⟩ : Fin 400) (⟨(idx 1).val, col_lt idx⟩ : Fin 128))

/-- What the body leaves in the output's staging buffer at a point from 25 on. -/
def oblk (c : Dev nD) (t : Fin cfg0.N) : Vec F S400x128 .f32 := k0_pay3 (iblk m c 5 t) (gArr m c) (iblk m c 4 t)

/-- The rows below 400 (n + 1) of `d` are those of `g`. -/
def Ginv (c : Dev nD) (n : ℕ) (d : Vec F S10000x128 .f32) : Prop :=
  ∀ idx : S10000x128.Idx, (idx 0).val < 400 * (n + 1) → d idx = gArr m c idx

theorem Ginv_full (c : Dev nD) {n : ℕ} (hn : 24 ≤ n) {d : Vec F S10000x128 .f32} (h : Ginv m c n d) : d = gArr m c :=
  funext fun idx => h idx (by have := row_lt idx; nlinarith)

theorem Ginv_gArr (c : Dev nD) (n : ℕ) : Ginv m c n (gArr m c) := fun _ _ => rfl

/-- The block stored at a point below 25 extends the rows of `g` by one block: an index in rows [400 t, 400 t + 400)
    reads the new block, which is `g`'s there; any other reads what was there before. -/
theorem Ginv_step (c : Dev nD) (t : Fin cfg0.N) (ht : t.val < 25) (h1 : cond1 (grid0.coords t)) (d : Vec F S10000x128 .f32)
    (hprev : t.val ≠ 0 → Ginv m c (t.val - 1) d) :
    Ginv m c t.val (scG.view.read (Elt F) (scG.view.writes (Elt F) ((Memref.isWhole_whole cc0_scratch1).unread d)
      [⟨Rect.unit (s := S10000x128) (k0_off1 (grid0.coords t)) S400x128.size (k0_off1_inb (grid0.coords t) h1), gblk m c t.val t.isLt⟩])) := by
  intro idx hidx
  refine (View.read_writes_cons_rows (d := ![10000, 128]) (off := k0_off1 (grid0.coords t)) (size := S400x128.size)
    (o := 400 * t.val) (W := 400) scG.view ((Memref.isWhole_whole cc0_scratch1).unread d) (k0_off1_inb (grid0.coords t) h1)
    (gblk m c t.val t.isLt) [] idx (off1_eq t ht) rfl rfl).trans ?_
  split
  · next h =>
    unfold gArr
    have hq : (idx 0).val / 400 = t.val := by omega
    rw [gblk_congr m c hq _ t.isLt]
    congr 1
    apply Shape.idx_ext₂
    · show (idx 0).val - 400 * t.val = (idx 0).val % 400; omega
    · show (idx 1).val - 0 = (idx 1).val; omega
  · next h =>
    rw [View.writes_nil, (Memref.isWhole_whole cc0_scratch1).read_unread]
    have h0 : t.val ≠ 0 := by omega
    exact hprev h0 idx (by omega)

/-- The relational proof data of the region on core `c`: the arrays as the region finds them; every input's staging
    buffer left as found; the output's staging buffer, from point 25 on, left at `oblk` (before that, at anything);
    the invariant `PhiS` below; full shares, nothing owed. -/
def PhiS (c : Dev nD) : (n : ℕ) → n ≤ cfg0.N → sProp 𝕄
  | 0, _ => Pipeline.ΦA spec0 c
  | n + 1, _ => iprop(iprop(owns (c : Thread nD τ) scY fullShare (yv m c) ∗ (∃ d, ⌜Ginv m c n d⌝ ∗ owns (c : Thread nD τ) scG fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scY fullShare (yv m c) ∗ (∃ d, ⌜Ginv m c n d⌝ ∗ owns (c : Thread nD τ) scG fullShare d)) ∗ (∃ r, prngReg c r)) := rfl

theorem PhiS_pos (c : Dev nD) (n : ℕ) (h : n ≤ cfg0.N) (hz : n ≠ 0) :
    PhiS m c n h = iprop(iprop(owns (c : Thread nD τ) scY fullShare (yv m c) ∗ (∃ d, ⌜Ginv m c (n - 1) d⌝ ∗ owns (c : Thread nD τ) scG fullShare d)) ∗ (∃ r, prngReg c r)) := by
  cases n with
  | zero => exact absurd rfl hz
  | succ n => rfl

def rd (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => 25 ≤ t.val → X = oblk m c t
  Φ t := PhiS m c t.val (Nat.le_of_lt_succ t.isLt)
  q _ := fullShare
  owed _ := 0

theorem A_eq (c : Dev nD) (w : Fin cfg0.W) : (rd m c).A w = V m c (Pipeline.arrRef spec0 w) := rfl

theorem Phi_castSucc (c : Dev nD) (t : Fin cfg0.N) : (rd m c).Φ t.castSucc = PhiS m c t.val (Nat.le_of_lt t.isLt) := by
  dsimp only [rd]; simp only [Fin.coe_castSucc]

theorem Phi_succ (c : Dev nD) (t : Fin cfg0.N) : (rd m c).Φ t.succ = PhiS m c (t.val + 1) t.isLt := rfl

theorem after_out (c : Dev nD) (t : Fin cfg0.N) (Y X : S400x128.Idx → Elt F .f32) :
    (rd m c).after 6 t Y X = (25 ≤ t.val → X = oblk m c t) := rfl

/-- Whatever the body finds in an input's staging buffer is that input's block at the point. -/
theorem finds0 (c : Dev nD) (t : Fin cfg0.N) (Y) (h : (rd m c).Finds 0 t Y) : Y = iblk m c 0 t := by
  obtain ⟨d, hd⟩ := (rd m c).finds_in_eq_fetched 0 rfl (fun _ _ _ => rfl) (fun _ _ _ h => h) t Y h
  exact hd.trans (by unfold RDat.fetched RDat.blockOf iblk; rfl)
theorem finds1 (c : Dev nD) (t : Fin cfg0.N) (Y) (h : (rd m c).Finds 1 t Y) : Y = iblk m c 1 t := by
  obtain ⟨d, hd⟩ := (rd m c).finds_in_eq_fetched 1 rfl (fun _ _ _ => rfl) (fun _ _ _ h => h) t Y h
  exact hd.trans (by unfold RDat.fetched RDat.blockOf iblk; rfl)
theorem finds2 (c : Dev nD) (t : Fin cfg0.N) (Y) (h : (rd m c).Finds 2 t Y) : Y = iblk m c 2 t := by
  obtain ⟨d, hd⟩ := (rd m c).finds_in_eq_fetched 2 rfl (fun _ _ _ => rfl) (fun _ _ _ h => h) t Y h
  exact hd.trans (by unfold RDat.fetched RDat.blockOf iblk; rfl)
theorem finds3 (c : Dev nD) (t : Fin cfg0.N) (Y) (h : (rd m c).Finds 3 t Y) : Y = iblk m c 3 t := by
  obtain ⟨d, hd⟩ := (rd m c).finds_in_eq_fetched 3 rfl (fun _ _ _ => rfl) (fun _ _ _ h => h) t Y h
  exact hd.trans (by unfold RDat.fetched RDat.blockOf iblk; rfl)
theorem finds4 (c : Dev nD) (t : Fin cfg0.N) (Y) (h : (rd m c).Finds 4 t Y) : Y = iblk m c 4 t := by
  obtain ⟨d, hd⟩ := (rd m c).finds_in_eq_fetched 4 rfl (fun _ _ _ => rfl) (fun _ _ _ h => h) t Y h
  exact hd.trans (by unfold RDat.fetched RDat.blockOf iblk; rfl)
theorem finds5 (c : Dev nD) (t : Fin cfg0.N) (Y) (h : (rd m c).Finds 5 t Y) : Y = iblk m c 5 t := by
  obtain ⟨d, hd⟩ := (rd m c).finds_in_eq_fetched 5 rfl (fun _ _ _ => rfl) (fun _ _ _ h => h) t Y h
  exact hd.trans (by unfold RDat.fetched RDat.blockOf iblk; rfl)

end Cert.KernelIdeal.Hand

end
-- ==== Proof.KernelIdeal.RunFirst.lean ====
/-
  The body at point 0 (the first two conditionals taken): it fills the whole scratch `y` with x · W1ᵀ, then
  — reading `y` back — computes the first block of `g` exactly as at the later points and stores it into
  rows [0, 400) of the scratch `g`. The scratch `y` comes back holding x · W1ᵀ, the scratch `g` as its former
  contents overwritten by that one block.
-/
import proofs.«150624_g46213848105873_cont_8to1_c_498_8_alg».proof.Proof.KernelIdeal.Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

set_option maxHeartbeats 1000000 in
theorem run_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x10000 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x128 .f32) (harg9 : arg9.IsWhole) (hc0 : cond0 i) (hc1 : cond1 i) (hc2 : ¬cond2 i)
    (x0 : Vec F S10000x128 .f32) (x1 : Vec F S128x128 .f32) (x2 : Vec F S1x128 .f32) (x3 : Vec F S128x128 .f32) (x4 : Vec F S1x128 .f32) (x5 : Vec F S400x10000 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (k0_pay1 x0 x1)
            ∗ owns (c : Thread nD τ) arg9 fullShare (arg9.view.read (Elt F) (arg9.view.writes (Elt F) (harg9.unread xs1)
                [⟨Rect.unit (s := S10000x128) (k0_off1 i) S400x128.size (k0_off1_inb i hc1), k0_pay2 x5 (k0_pay1 x0 x1) x2 x3⟩]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
  sl_exec (disch := first | exact hc0 | exact hc1 | exact hc2)
  sl_step
  sl_unfold_words
  have e1 : View.readAt (Elt F) arg1.view (Rect.unit ![0, 0] S10000x128.size inb_S10000x128_S10000x128_0_0).toLoadRect (harg1.unread x0) = x0 := by
    rw [View.readAt_eq_ld, harg1.read_unread, View.ld_unit_zero (S := S10000x128) zero2]
  have e2 : View.readAt (Elt F) arg2.view (Rect.unit ![0, 0] S128x128.size inb_S128x128_S128x128_0_0).toLoadRect (harg2.unread x1) = x1 := by
    rw [View.readAt_eq_ld, harg2.read_unread, View.ld_unit_zero (S := S128x128) zero2]
  have e6 : View.readAt (Elt F) arg6.view (Rect.unit ![0, 0] S400x10000.size inb_S400x10000_S400x10000_0_0).toLoadRect (harg6.unread x5) = x5 := by
    rw [View.readAt_eq_ld, harg6.read_unread, View.ld_unit_zero (S := S400x10000) zero2]
  have e3 : View.readAt (Elt F) arg3.view (Rect.unit ![0, 0] S1x128.size inb_S1x128_S1x128_0_0).toLoadRect (harg3.unread x2) = x2 := by
    rw [View.readAt_eq_ld, harg3.read_unread, View.ld_unit_zero (S := S1x128) zero2]
  have e4 : View.readAt (Elt F) arg4.view (Rect.unit ![0, 0] S128x128.size inb_S128x128_S128x128_0_0).toLoadRect (harg4.unread x3) = x3 := by
    rw [View.readAt_eq_ld, harg4.read_unread, View.ld_unit_zero (S := S128x128) zero2]
  simp only [e1, e2, e6, e3, e4, View.readCov_unit_zero (S := S10000x128) _ zero2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [HS0]
  · iexists _; isplitr; swap; · iexact HS0
    ipureintro
    rw [View.read_writes_eq_canon _ _ _ (fun y => View.cover_of_tiledL _ S10000x128.size (by sl_kernel_rfl) y),
      View.canon_unit_zero (S := S10000x128) zero2]
  iexists _; isplitr; swap; · iexact HS1
  ipureintro; rfl

end Cert.KernelIdeal.Hand

end
-- ==== Proof.KernelIdeal.RunFill.lean ====
/-
  The body at a point 0 < t < 25 (only the second conditional taken): it multiplies the current 400 rows of the
  adjacency by the carried scratch `y`, adds the first bias, clamps below at zero, multiplies by the second
  weight, and stores the 400 × 128 result into rows [400 t, 400 t + 400) of the scratch `g`; everything else
  is handed back as found. The scratch `g` comes back as its former contents overwritten by that one block.
-/
import proofs.«150624_g46213848105873_cont_8to1_c_498_8_alg».proof.Proof.KernelIdeal.Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

set_option maxHeartbeats 1000000 in
theorem run_fill (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x10000 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x128 .f32) (harg9 : arg9.IsWhole) (hc0 : ¬cond0 i) (hc1 : cond1 i) (hc2 : ¬cond2 i)
    (x0 : Vec F S10000x128 .f32) (x1 : Vec F S128x128 .f32) (x2 : Vec F S1x128 .f32) (x3 : Vec F S128x128 .f32) (x4 : Vec F S1x128 .f32) (x5 : Vec F S400x10000 .f32) (xs0 xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ owns (c : Thread nD τ) arg9 fullShare (arg9.view.read (Elt F) (arg9.view.writes (Elt F) (harg9.unread xs1)
                [⟨Rect.unit (s := S10000x128) (k0_off1 i) S400x128.size (k0_off1_inb i hc1), k0_pay2 x5 xs0 x2 x3⟩]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  have e6 : View.readAt (Elt F) arg6.view (Rect.unit ![0, 0] S400x10000.size inb_S400x10000_S400x10000_0_0).toLoadRect (harg6.unread x5) = x5 := by
    rw [View.readAt_eq_ld, harg6.read_unread, View.ld_unit_zero (S := S400x10000) zero2]
  have e8 : View.readAt (Elt F) arg8.view (Rect.unit ![0, 0] S10000x128.size inb_S10000x128_S10000x128_0_0).toLoadRect (harg8.unread xs0) = xs0 := by
    rw [View.readAt_eq_ld, harg8.read_unread, View.ld_unit_zero (S := S10000x128) zero2]
  have e3 : View.readAt (Elt F) arg3.view (Rect.unit ![0, 0] S1x128.size inb_S1x128_S1x128_0_0).toLoadRect (harg3.unread x2) = x2 := by
    rw [View.readAt_eq_ld, harg3.read_unread, View.ld_unit_zero (S := S1x128) zero2]
  have e4 : View.readAt (Elt F) arg4.view (Rect.unit ![0, 0] S128x128.size inb_S128x128_S128x128_0_0).toLoadRect (harg4.unread x3) = x3 := by
    rw [View.readAt_eq_ld, harg4.read_unread, View.ld_unit_zero (S := S128x128) zero2]
  rw [e6, e8, e3, e4]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [HS0]
  · iexists _; isplitr; · ipureintro; exact harg8.read_unread _
    iexact HS0
  iexists _; isplitr; swap; · iexact HS1
  ipureintro; rfl

end Cert.KernelIdeal.Hand

end
-- ==== Proof.KernelIdeal.RunOut.lean ====
/-
  The body at a point t ≥ 25 (only the third conditional taken): it multiplies the current 400 rows of the
  adjacency by the whole scratch `g`, adds the second bias, and stores the 400 × 128 result over the whole
  output staging buffer; both scratch buffers and the inputs are handed back as found.
-/
import proofs.«150624_g46213848105873_cont_8to1_c_498_8_alg».proof.Proof.KernelIdeal.Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

set_option maxHeartbeats 1000000 in
theorem run_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x10000 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S10000x128 .f32) (harg9 : arg9.IsWhole) (hc0 : ¬cond0 i) (hc1 : ¬cond1 i) (hc2 : cond2 i)
    (x0 : Vec F S10000x128 .f32) (x1 : Vec F S128x128 .f32) (x2 : Vec F S1x128 .f32) (x3 : Vec F S128x128 .f32) (x4 : Vec F S1x128 .f32) (x5 : Vec F S400x10000 .f32) (xs0 xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay3 x5 xs1 x4) ∗ owns (c : Thread nD τ) arg8 fullShare xs0
            ∗ owns (c : Thread nD τ) arg9 fullShare xs1) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  have e6 : View.readAt (Elt F) arg6.view (Rect.unit ![0, 0] S400x10000.size inb_S400x10000_S400x10000_0_0).toLoadRect (harg6.unread x5) = x5 := by
    rw [View.readAt_eq_ld, harg6.read_unread, View.ld_unit_zero (S := S400x10000) zero2]
  have e9 : View.readAt (Elt F) arg9.view (Rect.unit ![0, 0] S10000x128.size inb_S10000x128_S10000x128_0_0).toLoadRect (harg9.unread xs1) = xs1 := by
    rw [View.readAt_eq_ld, harg9.read_unread, View.ld_unit_zero (S := S10000x128) zero2]
  have e5 : View.readAt (Elt F) arg5.view (Rect.unit ![0, 0] S1x128.size inb_S1x128_S1x128_0_0).toLoadRect (harg5.unread x4) = x4 := by
    rw [View.readAt_eq_ld, harg5.read_unread, View.ld_unit_zero (S := S1x128) zero2]
  rw [e6, e9, e5]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [View.read_writes_eq_canon _ _ _ (fun y => View.cover_of_tiledL _ S400x128.size (by sl_kernel_rfl) y),
      View.canon_unit_zero zero2]
  isplitl [HS0]
  · iexists _; isplitr; · ipureintro; exact harg8.read_unread _
    iexact HS0
  iexists _; isplitr; · ipureintro; exact harg9.read_unread _
  iexact HS1

end Cert.KernelIdeal.Hand

end
-- ==== Proof.KernelIdeal.Body.lean ====
/-
  The body obligation of the region over the relational proof data: at every point, from the invariant and the
  staging buffers at what the body may find there, the kernel's body runs to the invariant at the next point
  and hands each buffer back in the data's relation. Point 0 fills `y` and the first block of `g`; the points
  below 25 add one block of `g` each; from point 25 on `g` is complete and the output's buffer is left at the
  point's block of the result.
-/
import proofs.«150624_g46213848105873_cont_8to1_c_498_8_alg».proof.Proof.KernelIdeal.Carried
import proofs.«150624_g46213848105873_cont_8to1_c_498_8_alg».proof.Proof.KernelIdeal.RunFirst
import proofs.«150624_g46213848105873_cont_8to1_c_498_8_alg».proof.Proof.KernelIdeal.RunFill
import proofs.«150624_g46213848105873_cont_8to1_c_498_8_alg».proof.Proof.KernelIdeal.RunOut

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`: the inputs' buffers at their blocks, the output's at `Y6`. -/
def bodyPre (c : Dev nD) (t : Fin cfg0.N) (Y6 : S400x128.Idx → Elt F .f32) : sProp 𝕄 :=
  iprop((rd m c).Φ t.castSucc ∗ (rd m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare Y6)

/-- What it returns: every buffer at some contents in the data's relation to what it was handed. -/
def bodyPost (c : Dev nD) (t : Fin cfg0.N) (Y6 : S400x128.Idx → Elt F .f32) : sProp 𝕄 :=
  iprop((rd m c).Φ t.succ ∗ (rd m c).owesAt () t.succ
    ∗ (∃ X, ⌜(rd m c).after 0 t (iblk m c 0 t) X⌝ ∗ owns (c : Thread nD τ) (ms0 t) fullShare X)
    ∗ (∃ X, ⌜(rd m c).after 1 t (iblk m c 1 t) X⌝ ∗ owns (c : Thread nD τ) (ms1 t) fullShare X)
    ∗ (∃ X, ⌜(rd m c).after 2 t (iblk m c 2 t) X⌝ ∗ owns (c : Thread nD τ) (ms2 t) fullShare X)
    ∗ (∃ X, ⌜(rd m c).after 3 t (iblk m c 3 t) X⌝ ∗ owns (c : Thread nD τ) (ms3 t) fullShare X)
    ∗ (∃ X, ⌜(rd m c).after 4 t (iblk m c 4 t) X⌝ ∗ owns (c : Thread nD τ) (ms4 t) fullShare X)
    ∗ (∃ X, ⌜(rd m c).after 5 t (iblk m c 5 t) X⌝ ∗ owns (c : Thread nD τ) (ms5 t) fullShare X)
    ∗ (∃ X, ⌜(rd m c).after 6 t Y6 X⌝ ∗ owns (c : Thread nD τ) (ms6 t) fullShare X))

set_option maxHeartbeats 4000000 in
theorem sound_body (c : Dev nD) (t : Fin cfg0.N) (Y6 : S400x128.Idx → Elt F .f32) :
    bodyPre m c t Y6 ⊢ wp frame (wpE (defs₀ (F := F)) Variants.none c none) Set.univ (bodyAt0 t) (fun _ => bodyPost m c t Y6) := by
  unfold bodyPre bodyPost bodyAt0
  rw [show (rd m c).owesAt () t.succ = (rd m c).owesAt () t.castSucc from rfl, Phi_succ, PhiS_succ, Phi_castSucc]
  have hN : t.val < 50 := lt_of_lt_of_eq t.isLt N50
  by_cases h0 : t.val = 0
  · have ht0 : t = t0 := Fin.ext h0
    subst ht0
    rw [PhiS_zero m c _ _ rfl, PhiA_eq]
    have hc1 : cond1 (grid0.coords t0) := (hcond1 t0).mpr (by decide)
    iintro ⟨⟨⟨HS0, ⟨%d1, HS1⟩⟩, Hg⟩, Ho, H0, H1, H2, H3, H4, H5, H6⟩
    iapply (run_first c (grid0.coords t0) _ _ _ _ _ _ _ _ _ _ _ _ _ _ _ _ _ _ ((hcond0 t0).mpr rfl) hc1 (fun h => absurd ((hcond2 t0).mp h) (by decide))
      (iblk m c 0 t0) (iblk m c 1 t0) (iblk m c 2 t0) (iblk m c 3 t0) (iblk m c 4 t0) (iblk m c 5 t0) d1 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _; iexact H6
    isplitl [HS0]
    · iexact HS0
    isplitl [HS1]
    · iexact HS1
    iintro ⟨H0, H1, H2, H3, H4, H5, ⟨%d6, H6⟩, HS0, HS1⟩
    isplitl [HS0 HS1 Hg]
    · isplitl [HS0 HS1]
      · isplitl [HS0]
        · iexact HS0
        iexists _; isplitr
        · ipureintro
          exact Ginv_step m c t0 (by decide) hc1 d1 (fun h => absurd rfl h)
        iexact HS1
      iexact Hg
    isplitl [Ho]
    · iexact Ho
    isplitl [H0]
    · iexists _; isplitr
      · ipureintro; rfl
      iexact H0
    isplitl [H1]
    · iexists _; isplitr
      · ipureintro; rfl
      iexact H1
    isplitl [H2]
    · iexists _; isplitr
      · ipureintro; rfl
      iexact H2
    isplitl [H3]
    · iexists _; isplitr
      · ipureintro; rfl
      iexact H3
    isplitl [H4]
    · iexists _; isplitr
      · ipureintro; rfl
      iexact H4
    isplitl [H5]
    · iexists _; isplitr
      · ipureintro; rfl
      iexact H5
    iexists d6; isplitr
    · ipureintro; intro h; exact absurd h (by decide)
    iexact H6
  · rw [PhiS_pos m c _ _ h0]
    by_cases h1 : t.val < 25
    · have hc1 : cond1 (grid0.coords t) := (hcond1 t).mpr h1
      iintro ⟨⟨⟨HS0, ⟨%d1, %hd1, HS1⟩⟩, Hg⟩, Ho, H0, H1, H2, H3, H4, H5, H6⟩
      iapply (run_fill c (grid0.coords t) _ _ _ _ _ _ _ _ _ _ _ _ _ _ _ _ _ _ (fun h => h0 ((hcond0 t).mp h)) hc1 (fun h => absurd ((hcond2 t).mp h) (by omega))
        (iblk m c 0 t) (iblk m c 1 t) (iblk m c 2 t) (iblk m c 3 t) (iblk m c 4 t) (iblk m c 5 t) (yv m c) d1 Set.univ _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexists _; iexact H6
      isplitl [HS0]
      · iexact HS0
      isplitl [HS1]
      · iexact HS1
      iintro ⟨H0, H1, H2, H3, H4, H5, ⟨%d6, H6⟩, HS0, HS1⟩
      isplitl [HS0 HS1 Hg]
      · isplitl [HS0 HS1]
        · isplitl [HS0]
          · iexact HS0
          iexists _; isplitr
          · ipureintro
            exact Ginv_step m c t h1 hc1 d1 (fun _ => hd1)
          iexact HS1
        iexact Hg
      isplitl [Ho]
      · iexact Ho
      isplitl [H0]
      · iexists _; isplitr
        · ipureintro; rfl
        iexact H0
      isplitl [H1]
      · iexists _; isplitr
        · ipureintro; rfl
        iexact H1
      isplitl [H2]
      · iexists _; isplitr
        · ipureintro; rfl
        iexact H2
      isplitl [H3]
      · iexists _; isplitr
        · ipureintro; rfl
        iexact H3
      isplitl [H4]
      · iexists _; isplitr
        · ipureintro; rfl
        iexact H4
      isplitl [H5]
      · iexists _; isplitr
        · ipureintro; rfl
        iexact H5
      iexists d6; isplitr
      · ipureintro; intro h; exact absurd h (by omega)
      iexact H6
    · iintro ⟨⟨⟨HS0, ⟨%d1, %hd1, HS1⟩⟩, Hg⟩, Ho, H0, H1, H2, H3, H4, H5, H6⟩
      obtain rfl := Ginv_full m c (n := t.val - 1) (by omega) hd1
      iapply (run_out c (grid0.coords t) _ _ _ _ _ _ _ _ _ _ _ _ _ _ _ _ _ _ (fun h => h0 ((hcond0 t).mp h)) (fun h => h1 ((hcond1 t).mp h)) ((hcond2 t).mpr (by omega))
        (iblk m c 0 t) (iblk m c 1 t) (iblk m c 2 t) (iblk m c 3 t) (iblk m c 4 t) (iblk m c 5 t) (yv m c) (gArr m c) Set.univ _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexists _; iexact H6
      isplitl [HS0]
      · iexact HS0
      isplitl [HS1]
      · iexact HS1
      iintro ⟨H0, H1, H2, H3, H4, H5, H6, HS0, HS1⟩
      isplitl [HS0 HS1 Hg]
      · isplitl [HS0 HS1]
        · isplitl [HS0]
          · iexact HS0
          iexists _; isplitr
          · ipureintro
            exact Ginv_gArr m c t.val
          iexact HS1
        iexact Hg
      isplitl [Ho]
      · iexact Ho
      isplitl [H0]
      · iexists _; isplitr
        · ipureintro; rfl
        iexact H0
      isplitl [H1]
      · iexists _; isplitr
        · ipureintro; rfl
        iexact H1
      isplitl [H2]
      · iexists _; isplitr
        · ipureintro; rfl
        iexact H2
      isplitl [H3]
      · iexists _; isplitr
        · ipureintro; rfl
        iexact H3
      isplitl [H4]
      · iexists _; isplitr
        · ipureintro; rfl
        iexact H4
      isplitl [H5]
      · iexists _; isplitr
        · ipureintro; rfl
        iexact H5
      iexists _; isplitr
      · ipureintro; intro _; rfl
      iexact H6

/-- The body obligation of the relational data, at every point. -/
theorem body_obligation (c : Dev nD) : (rd m c).BodyObligation (defs₀ (F := F)) Variants.none () Set.univ := fun t Y hY => by
  rw [bigSep_W0, bigSep_W0]
  rw [finds0 m c t (Y 0) (hY 0), finds1 m c t (Y 1) (hY 1), finds2 m c t (Y 2) (hY 2), finds3 m c t (Y 3) (hY 3),
    finds4 m c t (Y 4) (hY 4), finds5 m c t (Y 5) (hY 5)]
  exact sound_body m c t (Y 6)

end Cert.KernelIdeal.Hand

end
-- ==== Proof.KernelIdeal.Launch.lean ====
/-
  The region's run over the relational proof data, and the frame: every weakly fair execution of @main
  terminates without a fault, each input array of the pipeline ends as the region found it, and every other
  unscoped buffer too; the output's array ends in the data's relation to its entry contents (read in the value
  part, where there is one).
-/
import proofs.«150624_g46213848105873_cont_8to1_c_498_8_alg».proof.Proof.KernelIdeal.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the class's. -/
theorem hin (c : Dev nD) : Pipeline.ΦA spec0 c ⊢ (rd m c).Φ 0 := by
  rw [show (rd m c).Φ 0 = PhiS m c 0 (Nat.zero_le _) from rfl, PhiS_zero m c 0 _ rfl]
  try exact Idealize.SL.BI.Entails.refl _

/-- After the last point it gives the class's back: what the two scratch buffers hold is forgotten. -/
theorem hout (c : Dev nD) : (rd m c).Φ (Fin.last cfg0.N) ⊢ Pipeline.ΦA spec0 c := by
  rw [show (rd m c).Φ (Fin.last cfg0.N) = PhiS m c (Fin.last cfg0.N).val (Nat.le_of_lt_succ (Fin.last cfg0.N).isLt) from rfl,
    PhiS_pos m c _ _ (by rw [Fin.val_last, N50]; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- The run: every array of the pipeline ends at contents the relational data allow after every write-back, every
    other unscoped buffer at its region-entry contents. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((A_eq m c 0).trans (V_main_arg0 m c)),
      (Pipeline.RDat.FramePost.arr_in h c 5 rfl).trans ((A_eq m c 5).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Hand

end
-- ==== Proof.KernelIdeal.OutDef.lean ====
/-
  The result array named by blocks: row `r` lies in block `r / 400`, and the point that leaves that block in the
  output's staging buffer is `49 - r / 400` (the second pass walks the adjacency's row blocks backwards).
-/
import proofs.«150624_g46213848105873_cont_8to1_c_498_8_alg».proof.Proof.KernelIdeal.Carried

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The result array: at row `r`, column `q`, what point `49 - r / 400` left at row `r % 400`, column `q` of its block. -/
def outArr (c : Dev nD) : Vec F S10000x128 .f32 := fun idx =>
  oblk m c ⟨49 - (idx 0).val / 400, by rw [N50]; omega⟩
    (ix2 (⟨(idx 0).val % 400, Nat.mod_lt _ (by omega)⟩ : Fin 400) (⟨(idx 1).val, col_lt idx⟩ : Fin 128))

end Cert.KernelIdeal.Hand

end
-- ==== Proof.ArrCover.lean ====
/-
  What an output array holds after the region, read off relational proof data. The array after the write-backs
  is its entry contents overwritten, in point order, by the part each flushing point moves of what the body left.
  If from some point n0 on every flushing point writes back its own block of ONE array G, and those blocks cover
  the array, the array ends at G: an earlier write-back, whatever it moved, is overwritten by a later one of them.
-/
import Idealize.ShloMosaic.Lib.Pipeline.Value

namespace Cert.ArrCover

open Idealize.ShloMosaic Idealize.ShloMosaic.Pipeline Idealize.SL Idealize.SL.RA Idealize.SL.Sem

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- One step of what the array may hold, at any number of points. Either point `n` is on the grid and writes back:
    the array is an earlier one with the point's block overwritten by the moved part of something the body may have
    left. Or `n` is past the grid or does not write back: the array is an earlier one. -/
theorem arrAt_succ_cases (w : Fin cfg.W) (n : Nat) (A : Buf Val ((cfg.win w).arr.view.loc (c.tc : Thread nD τ)))
    (h : rd.ArrAt w (n + 1) A) :
    (∃ hn : n < cfg.N, (cfg.win w).flush ⟨n, hn⟩ = true ∧ ∃ G₀ X, rd.ArrAt w n G₀ ∧ rd.Leaves w ⟨n, hn⟩ X ∧
        A = ((cfg.win w).blk ⟨n, hn⟩).view.write Val G₀ ((cfg.win w).cut (cfg.grid.coords ⟨n, hn⟩) X) Finset.univ)
      ∨ ((∀ hn : n < cfg.N, (cfg.win w).flush ⟨n, hn⟩ ≠ true) ∧ rd.ArrAt w n A) := by
  by_cases hn : n < cfg.N
  · have e := rd.ArrAt_succ w ⟨n, hn⟩
    have h' : (if (cfg.win w).flush ⟨n, hn⟩ then rd.ArrStep w ⟨n, hn⟩ (rd.ArrAt w n) else rd.ArrAt w n) A := e ▸ h
    by_cases hf : (cfg.win w).flush ⟨n, hn⟩ = true
    · rw [if_pos hf] at h'
      obtain ⟨G₀, X, h0, hX, hA⟩ := h'
      exact .inl ⟨hn, hf, G₀, X, h0, hX, hA⟩
    · rw [if_neg hf] at h'
      exact .inr ⟨fun _ => hf, h'⟩
  · refine .inr ⟨fun hn' => absurd hn' hn, ?_⟩
    have e1 := rd.ArrAt_stable w (n + 1) (by omega)
    have e2 := rd.ArrAt_stable w n (by omega)
    rw [e2, ← e1]; exact h

/-- If from point `n0` on every flushing point moves ITS BLOCK OF ONE whole-array contents `G`, an index in the
    block of a flushing point `t` with `n0 ≤ t < n` reads `G` after the write-backs below `n`: a later point that
    covers it again is itself from `n0` on and writes the same value; whatever came before is overwritten. -/
theorem arrAt_apply_of_mem (w : Fin cfg.W) (n0 : Nat) (G : Buf Val ((cfg.win w).arr.view.loc (c.tc : Thread nD τ)))
    (hG : ∀ t : Fin cfg.N, (cfg.win w).flush t = true → n0 ≤ t.val → ∀ X, rd.Leaves w t X →
      (cfg.win w).cut (cfg.grid.coords t) X = ((cfg.win w).blk t).view.read Val G) :
    ∀ (n : Nat) (A : Buf Val ((cfg.win w).arr.view.loc (c.tc : Thread nD τ))), rd.ArrAt w n A →
      ∀ (t : Fin cfg.N) (i : ((cfg.win w).arr.view.loc (c.tc : Thread nD τ)).2.ty.Idx),
        t.val < n → n0 ≤ t.val → (cfg.win w).flush t = true → i ∈ ((cfg.win w).blk t).view.set → A i = G i
  | 0, _, _, _, _, ht, _, _, _ => absurd ht (Nat.not_lt_zero _)
  | n + 1, A, hA, t, i, ht, h0, hf, hi => by
    rcases arrAt_succ_cases rd w n A hA with ⟨hn, hfn, G₀, X, hG₀, hX, rfl⟩ | ⟨hnf, hA'⟩
    · -- point `n` writes back, and it is from `n0` on since `t` is
      rw [hG ⟨n, hn⟩ hfn (by show n0 ≤ n; omega) X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        -- not in point `n`'s block: then `t` is an earlier point
        have htn : t.val ≠ n := fun e => hin (by rw [View.setOn_univ]; have : t = ⟨n, hn⟩ := Fin.ext e; exact this ▸ hi)
        exact arrAt_apply_of_mem w n0 G hG n G₀ hG₀ t i (by omega) h0 hf hi
    · -- point `n` writes nothing back: then `t` is an earlier point
      have htn : t.val ≠ n := fun e => hnf (e ▸ t.isLt) (by have : t = ⟨n, e ▸ t.isLt⟩ := Fin.ext e; exact this ▸ hf)
      exact arrAt_apply_of_mem w n0 G hG n A hA' t i (by omega) h0 hf hi

/-- THE WHOLE-ARRAY POST for relational data: when every index of the array is in the block of SOME flushing point
    from `n0` on, and each of those points moves its block of `G`, the array ends holding `G`. -/
theorem arrAt_eq_of_cover (w : Fin cfg.W) (n0 : Nat) (G : Buf Val ((cfg.win w).arr.view.loc (c.tc : Thread nD τ)))
    (hG : ∀ t : Fin cfg.N, (cfg.win w).flush t = true → n0 ≤ t.val → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, n0 ≤ t.val ∧ (cfg.win w).flush t = true ∧ i ∈ ((cfg.win w).blk t).view.set)
    (A : Buf Val ((cfg.win w).arr.view.loc (c.tc : Thread nD τ))) (h : rd.ArrAt w cfg.N A) : A = G :=
  funext fun i => by
    obtain ⟨t, h0, hf, hi⟩ := hcover i
    exact arrAt_apply_of_mem rd w n0 G hG cfg.N A h t i t.isLt h0 hf hi

end Cert.ArrCover
-- ==== Proof.KernelIdeal.OutFinal.lean ====
/-
  The result array after the region. Window 6 is written back at points 24 to 49: point 24 moves block 0 from a
  staging buffer the body has not stored into, and each point t from 25 on moves block 49 - t at the block the body
  left there; the blocks of points 25 to 49 tile the array, and the last of them rewrites block 0. So the array
  ends at `outArr`.
-/
import proofs.«150624_g46213848105873_cont_8to1_c_498_8_alg».proof.Proof.KernelIdeal.OutDef
import proofs.«150624_g46213848105873_cont_8to1_c_498_8_alg».proof.Proof.ArrCover

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block index of the result's window from point 25 on: it walks the row blocks backwards. -/
theorem idx6 : ∀ t : Fin cfg0.N, 25 ≤ t.val → win0_6.index t (0 : Fin 2) = 49 - t.val ∧ win0_6.index t (1 : Fin 2) = 0 :=
  (by decide +kernel : ∀ t : Fin grid0.N, 25 ≤ t.val → win0_6.index t (0 : Fin 2) = 49 - t.val ∧ win0_6.index t (1 : Fin 2) = 0)

/-- The result's window is written back at every point from 24 on. -/
theorem flush6 : ∀ t : Fin cfg0.N, 24 ≤ t.val → (cfg0.win 6).flush t = true :=
  (by decide +kernel : ∀ t : Fin grid0.N, 24 ≤ t.val → win0_6.flush t = true)

/-- What a point leaves depends on the point only through its number. -/
theorem oblk_congr (c : Dev nD) {k : ℕ} (hk : k < cfg0.N) (t : Fin cfg0.N) (h : k = t.val) :
    oblk m c ⟨k, hk⟩ = oblk m c t := by subst h; rfl

/-- The window is uncut: what a write-back moves is the whole staging buffer. -/
theorem cut6 (t : Fin cfg0.N) (X : S400x128.Idx → Elt F .f32) : (cfg0.win 6).cut (cfg0.grid.coords t) X = X := rfl

/-- An element of the block at point `t` sits at the block index times the block size plus its own coordinate. -/
theorem emb6_val (t : Fin cfg0.N) (y : S400x128.Idx) (a : Fin 2) :
    ((((cfg0.win 6).blk t).view.emb y) a : Nat) = win0_6.index t a * S400x128.size a + (y a).val :=
  Window.rect_emb_val win0_6 t y a

/-- The result array at row `400 (49 - t) + y 0`, column `y 1` is what point `t` left at `y`. -/
theorem outArr_at (c : Dev nD) (t : Fin cfg0.N) (ht : 25 ≤ t.val) (y : S400x128.Idx) (idx : S10000x128.Idx)
    (h0 : (idx 0).val = (49 - t.val) * 400 + (y 0).val) (h1 : (idx 1).val = (y 1).val) :
    outArr m c idx = oblk m c t y := by
  have hy0 : (y 0).val < 400 := (y 0).isLt
  have hlt : t.val < 50 := t.isLt.trans_eq N50
  have hq : 49 - (idx 0).val / 400 = t.val := by rw [h0]; omega
  unfold outArr
  rw [oblk_congr m c _ t hq]
  congr 1
  apply Shape.idx_ext₂
  · show (idx 0).val % 400 = (y 0).val; rw [h0]; omega
  · show (idx 1).val = (y 1).val; exact h1

/-- What a point from 25 on moves is its block of the result array. -/
theorem moved6 (c : Dev nD) (t : Fin cfg0.N) (ht : 25 ≤ t.val) (X : S400x128.Idx → Elt F .f32)
    (hX : (rd m c).Leaves 6 t X) :
    (cfg0.win 6).cut (cfg0.grid.coords t) X = ((cfg0.win 6).blk t).view.read (Elt F) (outArr m c) := by
  obtain ⟨Y, -, haft⟩ := hX
  rw [after_out] at haft
  rw [cut6, haft ht]
  funext y
  rw [View.read_apply]
  obtain ⟨e0, e1⟩ := idx6 t ht
  have h0 := emb6_val t y 0
  have h1 := emb6_val t y 1
  rw [e0] at h0; rw [e1] at h1
  exact (outArr_at m c t ht y _ h0 (by rw [h1]; show 0 * 128 + (y 1).val = (y 1).val; omega)).symm

/-- An index of the array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v0).slice (win0_6.rect t)).set ↔ _
  rw [View.set_slice_whole, Rect.mem_set_unit]
  exact Iff.rfl

/-- Row `r` of the result lies in the block of point `49 - r / 400`, a point from 25 on. -/
theorem cover6 (i : S10000x128.Idx) :
    ∃ t : Fin cfg0.N, 25 ≤ t.val ∧ (cfg0.win 6).flush t = true ∧ i ∈ ((cfg0.win 6).blk t).view.set := by
  have hr := row_lt i
  have hc := col_lt i
  have hN : 49 - (i 0).val / 400 < cfg0.N := by rw [N50]; omega
  obtain ⟨t, htv⟩ : ∃ t : Fin cfg0.N, t.val = 49 - (i 0).val / 400 := ⟨⟨_, hN⟩, rfl⟩
  have ht : 25 ≤ t.val := by omega
  obtain ⟨e0, e1⟩ := idx6 t ht
  refine ⟨t, ht, flush6 t (by omega), ?_⟩
  rw [mem_blk6]
  intro a
  match a with
  | ⟨0, _⟩ =>
    show win0_6.index t (0 : Fin 2) * 400 ≤ (i 0).val ∧ (i 0).val < win0_6.index t (0 : Fin 2) * 400 + 400
    rw [e0]; omega
  | ⟨1, _⟩ =>
    show win0_6.index t (1 : Fin 2) * 128 ≤ (i 1).val ∧ (i 1).val < win0_6.index t (1 : Fin 2) * 128 + 128
    rw [e1]; omega

theorem final_out (c : Dev nD) (A : Buf (Elt F) ((cfg0.win 6).arr.view.loc (c.tc : Thread nD τ)))
    (h : (rd m c).ArrAt 6 cfg0.N A) : A = outArr m c :=
  Cert.ArrCover.arrAt_eq_of_cover (rd m c) 6 25 (outArr m c)
    (fun t _ ht X hX => moved6 m c t ht X hX) cover6 A h

end Cert.KernelIdeal.Hand

end
-- ==== Proof.KernelIdeal.RunValue.lean ====
/-
  The idealized kernel's run with its result named: every weakly fair execution of @main terminates, the result
  array ends at `outArr` (the result by blocks), and the six argument arrays end unchanged.
-/
import proofs.«150624_g46213848105873_cont_8to1_c_498_8_alg».proof.Proof.KernelIdeal.Launch
import proofs.«150624_g46213848105873_cont_8to1_c_498_8_alg».proof.Proof.KernelIdeal.OutFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (Pipeline.RDat.FramePost.arr_in h c 0 rfl).trans ((A_eq m c 0).trans (V_main_arg0 m c)),
      (Pipeline.RDat.FramePost.arr_in h c 5 rfl).trans ((A_eq m c 5).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Hand

end
-- ==== Proof.Spec.lean ====
/-
  The two-layer graph convolution over the extended reals, written twice: as the kernel groups it,
      out = adj · (relu(adj · (x · W1ᵀ) + b1) · W2ᵀ) + b2,
  and as the reference groups it,
      out = (adj · relu((adj · x) · W1ᵀ + b1)) · W2ᵀ + b2.
  Every matrix product is a finite sum of products of entries; `W1ᵀ` and `W2ᵀ` appear through the entries of
  `W1` and `W2` with the coordinates exchanged. The two agree when every entry is a real number (associativity
  of the matrix product: exchange the two sums and distribute), which is the law proved in SpecLaw.lean.
-/
import Idealize.ShloMosaic.PureOps.Ideal
import Idealize.ShloMosaic.Lib.ValueIdx

noncomputable section

namespace Cert.Spec

open Idealize.ShloMosaic Idealize.ShloMosaic.ValueIdx

/-- A matrix of extended reals over literal extents, and a vector. -/
abbrev Mat (r c : ℕ) : Type := (⟨2, ![r, c]⟩ : Shape).Idx → EReal
abbrev Vc (n : ℕ) : Type := (⟨1, ![n]⟩ : Shape).Idx → EReal

/-- Every entry is a real number. -/
def Real {S : Shape} (v : S.Idx → EReal) : Prop := ∀ i, ∃ r : ℝ, v i = (r : EReal)

variable (x : Mat 10000 128) (adj : Mat 10000 10000) (W1 : Mat 128 128) (b1 : Vc 128) (W2 : Mat 128 128) (b2 : Vc 128)

/-! ### As the kernel groups it -/

/-- y = x · W1ᵀ : the features projected first. -/
def y (l : Fin 10000) (j : Fin 128) : EReal := ∑ p : Fin 128, x (ix2 l p) * W1 (ix2 j p)

/-- h = relu(adj · y + b1). -/
def h (k : Fin 10000) (j : Fin 128) : EReal := max ((∑ l : Fin 10000, adj (ix2 k l) * y x W1 l j) + b1 (ix1 j)) 0

/-- g = h · W2ᵀ. -/
def g (k : Fin 10000) (q : Fin 128) : EReal := ∑ j : Fin 128, h x adj W1 b1 k j * W2 (ix2 q j)

/-- out = adj · g + b2. -/
def out (r : Fin 10000) (q : Fin 128) : EReal := (∑ k : Fin 10000, adj (ix2 r k) * g x adj W1 b1 W2 k q) + b2 (ix1 q)

/-- The kernel's result as one function of the argument arrays. -/
def G : Mat 10000 128 := fun i => out x adj W1 b1 W2 b2 ⟨(i 0).val, (i 0).isLt⟩ ⟨(i 1).val, (i 1).isLt⟩

/-! ### As the reference groups it -/

/-- adj · x : the features aggregated first. -/
def ax (k : Fin 10000) (p : Fin 128) : EReal := ∑ l : Fin 10000, adj (ix2 k l) * x (ix2 l p)

/-- h' = relu((adj · x) · W1ᵀ + b1). -/
def h' (k : Fin 10000) (j : Fin 128) : EReal := max ((∑ p : Fin 128, ax x adj k p * W1 (ix2 j p)) + b1 (ix1 j)) 0

/-- adj · h'. -/
def ah (r : Fin 10000) (j : Fin 128) : EReal := ∑ k : Fin 10000, adj (ix2 r k) * h' x adj W1 b1 k j

/-- out' = (adj · h') · W2ᵀ + b2. -/
def out' (r : Fin 10000) (q : Fin 128) : EReal := (∑ j : Fin 128, ah x adj W1 b1 r j * W2 (ix2 q j)) + b2 (ix1 q)

/-- The reference's result as one function of the argument arrays. -/
def Gref : Mat 10000 128 := fun i => out' x adj W1 b1 W2 b2 ⟨(i 0).val, (i 0).isLt⟩ ⟨(i 1).val, (i 1).isLt⟩

end Cert.Spec

end
-- ==== Proof.KernelPay.lean ====
/-
  The kernel body's three stored values read at an index, at the ideal instance: each `tpu.matmul` into a zero
  accumulator is the plain sum of products over the contracted axis, the bias is broadcast along the rows, and the
  clamp is `max · 0`.
-/
import proofs.«150624_g46213848105873_cont_8to1_c_498_8_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelBridge

open Idealize.ShloMosaic Idealize.ShloMosaic.ValueIdx Cert.KernelIdeal Cert.KernelIdeal.Gen

variable [Cert.KernelIdeal.Facts]

/-! ## `features times weights`: the product of a 10000×128 by a 128×128 array, contracted over the one shared axis -/

/-- The left operand's row coordinate is the output's row. -/
theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Into the zero accumulator the product at (i, j) is Σ_k l[i, k] · r[k, j]. -/
theorem matmul_feat_apply (l : FVec Ideal S10000x128 .f32) (r : FVec Ideal S128x128 .f32) (i : Fin 10000) (j : Fin 128) :
    matmul (F := Ideal) dot_S10000x128_S128x128_S10000x128_1_0_0_1_n_n none l r (constant (F := Ideal) S10000x128 .f32 0x00000000#32) (ix2 i j)
      = ∑ k : Fin 128, l (ix2 i k) * r (ix2 k j) := by
  refine (Ideal.matmul_constant_zero_apply dot_S10000x128_S128x128_S10000x128_1_0_0_1_n_n none l r (ix2 i j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 i j) ((contrEquiv1 dot_S10000x128_S128x128_S10000x128_1_0_0_1_n_n 128 rfl rfl).symm k) = ix2 i k := funext fun a => Fin.ext (by
    match a with
    | ⟨0, _⟩ => exact lhs_feat_0 _ _
    | ⟨1, _⟩ => exact (lhs_feat_1 _ _).trans hk)
  have er : dot_S10000x128_S128x128_S10000x128_1_0_0_1_n_n.rhsIdx (ix2 i j) ((contrEquiv1 dot_S10000x128_S128x128_S10000x128_1_0_0_1_n_n 128 rfl rfl).symm k) = ix2 k j := funext fun a => Fin.ext (by
    match a with
    | ⟨0, _⟩ => exact (rhs_feat_0 _ _).trans hk
    | ⟨1, _⟩ => exact rhs_feat_1 _ _)
  rw [el, er]

/-! ## `adjacency block times features`: the product of a 400×10000 by a 10000×128 array, contracted over the one shared axis -/

/-- The left operand's row coordinate is the output's row. -/
theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column coordinate is the contraction index. -/
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row coordinate is the contraction index. -/
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column coordinate is the output's column. -/
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into the zero accumulator the product at (i, j) is Σ_k l[i, k] · r[k, j]. -/
theorem matmul_agg_apply (l : FVec Ideal S400x10000 .f32) (r : FVec Ideal S10000x128 .f32) (i : Fin 400) (j : Fin 128) :
    matmul (F := Ideal) dot_S400x10000_S10000x128_S400x128_1_0_0_1_n_n none l r (constant (F := Ideal) S400x128 .f32 0x00000000#32) (ix2 i j)
      = ∑ k : Fin 10000, l (ix2 i k) * r (ix2 k j) := by
  refine (Ideal.matmul_constant_zero_apply dot_S400x10000_S10000x128_S400x128_1_0_0_1_n_n none l r (ix2 i j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 i j) ((contrEquiv1 dot_S400x10000_S10000x128_S400x128_1_0_0_1_n_n 10000 rfl rfl).symm k) = ix2 i k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 i j) ((contrEquiv1 dot_S400x10000_S10000x128_S400x128_1_0_0_1_n_n 10000 rfl rfl).symm k) = ix2 k j := funext fun a => Fin.ext (by
    match a with
    | ⟨0, _⟩ => exact (rhs_agg_0 _ _).trans hk
    | ⟨1, _⟩ => exact rhs_agg_1 _ _)
  rw [el, er]

/-! ## `hidden block times weights`: the product of a 400×128 by a 128×128 array, contracted over the one shared axis -/

/-- The left operand's row coordinate is the output's row. -/
theorem lhs_hid_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column coordinate is the contraction index. -/
theorem lhs_hid_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the contraction index. -/
theorem rhs_hid_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column coordinate is the output's column. -/
theorem rhs_hid_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into the zero accumulator the product at (i, j) is Σ_k l[i, k] · r[k, j]. -/
theorem matmul_hid_apply (l : FVec Ideal S400x128 .f32) (r : FVec Ideal S128x128 .f32) (i : Fin 400) (j : Fin 128) :
    matmul (F := Ideal) dot_S400x128_S128x128_S400x128_1_0_0_1_n_n none l r (constant (F := Ideal) S400x128 .f32 0x00000000#32) (ix2 i j)
      = ∑ k : Fin 128, l (ix2 i k) * r (ix2 k j) := by
  refine (Ideal.matmul_constant_zero_apply dot_S400x128_S128x128_S400x128_1_0_0_1_n_n none l r (ix2 i j)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 i j) ((contrEquiv1 dot_S400x128_S128x128_S400x128_1_0_0_1_n_n 128 rfl rfl).symm k) = ix2 i k := funext fun a => Fin.ext (by
    match a with
    | ⟨0, _⟩ => exact lhs_hid_0 _ _
    | ⟨1, _⟩ => exact (lhs_hid_1 _ _).trans hk)
  have er : dot_S400x128_S128x128_S400x128_1_0_0_1_n_n.rhsIdx (ix2 i j) ((contrEquiv1 dot_S400x128_S128x128_S400x128_1_0_0_1_n_n 128 rfl rfl).symm k) = ix2 k j := funext fun a => Fin.ext (by
    match a with
    | ⟨0, _⟩ => exact (rhs_hid_0 _ _).trans hk
    | ⟨1, _⟩ => exact rhs_hid_1 _ _)
  rw [el, er]

/-! ## The three stored values -/

/-- The first scratch: (x · W1ᵀ)[l, j] = Σ_p x[l, p] · W1ᵀ[p, j]. -/
theorem pay1_apply (x0 : Vec Ideal S10000x128 .f32) (x1 : Vec Ideal S128x128 .f32) (l : Fin 10000) (j : Fin 128) :
    k0_pay1 (F := Ideal) x0 x1 (ix2 l j) = ∑ p : Fin 128, x0 (ix2 l p) * x1 (ix2 p j) := by
  unfold k0_pay1
  rw [shapeCast_self, shapeCast_self]
  exact matmul_feat_apply x0 x1 l j

/-- One block of the second scratch: (relu(a · y + b) · w)[r, q]. -/
theorem pay2_apply (a : Vec Ideal S400x10000 .f32) (y : Vec Ideal S10000x128 .f32) (b : Vec Ideal S1x128 .f32)
    (w : Vec Ideal S128x128 .f32) (r : Fin 400) (q : Fin 128) :
    k0_pay2 (F := Ideal) a y b w (ix2 r q)
      = ∑ j : Fin 128, max ((∑ l : Fin 10000, a (ix2 r l) * y (ix2 l j)) + b (ix2 (0 : Fin 1) j)) 0 * w (ix2 j q) := by
  unfold k0_pay2
  rw [shapeCast_self, shapeCast_self, shapeCast_self]
  refine (matmul_hid_apply _ w r q).trans ?_
  refine Finset.sum_congr rfl fun j _ => ?_
  rw [maximumf_apply, addf_apply, broadcast_apply, matmul_agg_apply a y r j, broadcastTo_1b_ab_apply]
  show max _ (Ideal.ofBits .f32 0x00000000#32) * _ = _
  rw [Ideal.ofBits_zero_f32]

/-- One block of the result: (a · g + b)[r, q]. -/
theorem pay3_apply (a : Vec Ideal S400x10000 .f32) (g : Vec Ideal S10000x128 .f32) (b : Vec Ideal S1x128 .f32)
    (r : Fin 400) (q : Fin 128) :
    k0_pay3 (F := Ideal) a g b (ix2 r q) = (∑ k : Fin 10000, a (ix2 r k) * g (ix2 k q)) + b (ix2 (0 : Fin 1) q) := by
  unfold k0_pay3
  rw [shapeCast_self, addf_apply, matmul_agg_apply a g r q, broadcastTo_1b_ab_apply]

end Cert.KernelBridge

end
-- ==== Proof.KernelValue.lean ====
/-
  The kernel's result array at the ideal instance, read as one function of the argument arrays: block by block it
  is the kernel's grouping of the graph convolution (`Cert.Spec.G`).

  Every staged block is read back as entries of the argument arrays. The features' block is the whole array; the
  two weight blocks are the weights with the coordinates exchanged (a transpose ran before the region); the two
  bias blocks are the biases as one row (a reshape ran before the region); the adjacency's block at a point is
  400 consecutive rows, rows 400 t … 400 t + 399 at a point t below 25 and rows 400 (49 - t) … at a point from 25
  on. With these the three stored values are the three sums of the specification: y = x · W1ᵀ once, then for row
  k of g the block k / 400 at row k % 400 (400 (k / 400) + k % 400 = k), then for row r of the result the point
  49 - r / 400, whose adjacency rows are block 49 - (49 - r / 400) = r / 400.
-/
import proofs.«150624_g46213848105873_cont_8to1_c_498_8_alg».proof.Proof.Spec
import proofs.«150624_g46213848105873_cont_8to1_c_498_8_alg».proof.Proof.KernelIdeal.OutDef
import proofs.«150624_g46213848105873_cont_8to1_c_498_8_alg».proof.Proof.KernelPay
import Idealize.ShloMosaic.PureOps.Ideal.Laws
import Idealize.ShloMosaic.Lib.Pipeline.Value
import Idealize.ShloMosaic.Lib.StableHlo.Run

noncomputable section

namespace Cert.KernelBridge

open Idealize.ShloMosaic Idealize.ShloMosaic.TcCoe Idealize.SL.Sem Idealize.ShloMosaic.ValueIdx

section Blocks

open Cert.KernelIdeal Cert.KernelIdeal.Gen Cert.KernelIdeal.Hand

variable [Cert.KernelIdeal.Facts]
variable (m : (ℓ : Loc nD τ sig) → Buf (Elt Ideal) ℓ) (c : Dev nD)

/-! ### The argument arrays and the staged blocks, at their literal types -/

/-- The features x, the adjacency, the two weights and the two biases as core `c` is launched with them. -/
abbrev aX : Cert.Spec.Mat 10000 128 := m ((c.tc : Thread nD τ).loc main_arg0)
abbrev aAdj : Cert.Spec.Mat 10000 10000 := m ((c.tc : Thread nD τ).loc main_arg1)
abbrev aW1 : Cert.Spec.Mat 128 128 := m ((c.tc : Thread nD τ).loc main_arg2)
abbrev aB1 : Cert.Spec.Vc 128 := m ((c.tc : Thread nD τ).loc main_arg3)
abbrev aW2 : Cert.Spec.Mat 128 128 := m ((c.tc : Thread nD τ).loc main_arg4)
abbrev aB2 : Cert.Spec.Vc 128 := m ((c.tc : Thread nD τ).loc main_arg5)

/-- The staged blocks at point `t`: the features, the first weight transposed, the first bias as a row, the second
    weight transposed, the second bias as a row, 400 rows of the adjacency. -/
abbrev xblk (t : Fin cfg0.N) : Vec Ideal S10000x128 .f32 := iblk m c 0 t
abbrev w1blk (t : Fin cfg0.N) : Vec Ideal S128x128 .f32 := iblk m c 1 t
abbrev b1blk (t : Fin cfg0.N) : Vec Ideal S1x128 .f32 := iblk m c 2 t
abbrev w2blk (t : Fin cfg0.N) : Vec Ideal S128x128 .f32 := iblk m c 3 t
abbrev b2blk (t : Fin cfg0.N) : Vec Ideal S1x128 .f32 := iblk m c 4 t
abbrev ablk (t : Fin cfg0.N) : Vec Ideal S400x10000 .f32 := iblk m c 5 t

/-! ### The block indices, decided once over the grid's 50 points -/

/-- The five whole-array windows sit at block (0, 0) at every point. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- The adjacency's row block: `t` on the way up (t < 25), `49 - t` on the way back. -/
theorem idx5 : ∀ t : Fin cfg0.N, win0_5.index t (0 : Fin 2) = (if t.val < 25 then t.val else 49 - t.val)
    ∧ win0_5.index t (1 : Fin 2) = 0 :=
  (by decide +kernel : ∀ t : Fin grid0.N, win0_5.index t (0 : Fin 2) = (if t.val < 25 then t.val else 49 - t.val)
    ∧ win0_5.index t (1 : Fin 2) = 0)

/-! ### What the region finds in the four arrays written before it -/

/-- The first weight's staged array is its transpose. -/
theorem V_v2 : (V m c main_call0_v2 : S128x128.Idx → EReal)
    = transpose S128x128 [1, 0] (aW1 m c) transposes_S128x128_S128x128_1_0 := by
  dsimp only [Gen.V, Gen.hostOps0]; after_results; rfl

/-- The second weight's staged array is its transpose. -/
theorem V_v3 : (V m c main_call0_v3 : S128x128.Idx → EReal)
    = transpose S128x128 [1, 0] (aW2 m c) transposes_S128x128_S128x128_1_0 := by
  dsimp only [Gen.V, Gen.hostOps0]; after_results; rfl

/-- The first bias's staged array is the bias as one row. -/
theorem V_v0 : (V m c main_call0_v0 : S1x128.Idx → EReal) = shapeCast S1x128 (aB1 m c) shapeCasts_S128_S1x128 := by
  dsimp only [Gen.V, Gen.hostOps0]; after_results; rfl

/-- The second bias's staged array is the bias as one row. -/
theorem V_v1 : (V m c main_call0_v1 : S1x128.Idx → EReal) = shapeCast S1x128 (aB2 m c) shapeCasts_S128_S1x128 := by
  dsimp only [Gen.V, Gen.hostOps0]; after_results; rfl

/-! ### Each staged block at an index -/

/-- The features' block is the features. -/
theorem xblk_apply (t : Fin cfg0.N) (l : Fin 10000) (p : Fin 128) : xblk m c t (ix2 l p) = aX m c (ix2 l p) := by
  obtain ⟨h0, h1⟩ := idx0 t
  unfold xblk iblk
  rw [View.read_apply]
  show V m c main_arg0 _ = m ((c.tc : Thread nD τ).loc main_arg0) _
  rw [V_main_arg0]
  congr 1
  funext a
  apply Fin.ext
  match a with
  | ⟨0, _⟩ => show win0_0.index t 0 * 10000 + 1 * l.val = l.val; rw [h0]; omega
  | ⟨1, _⟩ => show win0_0.index t 1 * 128 + 1 * p.val = p.val; rw [h1]; omega

/-- The first weight's block at (p, j) is W1 at (j, p). -/
theorem w1blk_apply (t : Fin cfg0.N) (p j : Fin 128) : w1blk m c t (ix2 p j) = aW1 m c (ix2 j p) := by
  obtain ⟨h0, h1⟩ := idx1 t
  unfold w1blk iblk
  rw [View.read_apply]
  show V m c main_call0_v2 _ = m ((c.tc : Thread nD τ).loc main_arg2) _
  rw [V_v2]
  refine transpose_apply [1, 0] _ _ _ (ix2 j p) fun b => ?_
  match b with
  | ⟨0, _⟩ => show p.val = win0_1.index t 0 * 128 + 1 * p.val; rw [h0]; omega
  | ⟨1, _⟩ => show j.val = win0_1.index t 1 * 128 + 1 * j.val; rw [h1]; omega

/-- The first bias's block at (0, j) is b1 at j. -/
theorem b1blk_apply (t : Fin cfg0.N) (j : Fin 128) : b1blk m c t (ix2 (0 : Fin 1) j) = aB1 m c (ix1 j) := by
  obtain ⟨h0, h1⟩ := idx2 t
  unfold b1blk iblk
  rw [View.read_apply]
  show V m c main_call0_v0 _ = m ((c.tc : Thread nD τ).loc main_arg3) _
  rw [V_v0]
  refine shapeCast_apply _ _ _ (ix1 j) ?_
  rw [Shape.rowMajor_val_one, Shape.rowMajor_val_two]
  show j.val = (win0_2.index t 0 * 1 + 1 * 0) * 128 + (win0_2.index t 1 * 128 + 1 * j.val)
  rw [h0, h1]; omega

/-- The second weight's block at (j, q) is W2 at (q, j). -/
theorem w2blk_apply (t : Fin cfg0.N) (j q : Fin 128) : w2blk m c t (ix2 j q) = aW2 m c (ix2 q j) := by
  obtain ⟨h0, h1⟩ := idx3 t
  unfold w2blk iblk
  rw [View.read_apply]
  show V m c main_call0_v3 _ = m ((c.tc : Thread nD τ).loc main_arg4) _
  rw [V_v3]
  refine transpose_apply [1, 0] _ _ _ (ix2 q j) fun b => ?_
  match b with
  | ⟨0, _⟩ => show j.val = win0_3.index t 0 * 128 + 1 * j.val; rw [h0]; omega
  | ⟨1, _⟩ => show q.val = win0_3.index t 1 * 128 + 1 * q.val; rw [h1]; omega

/-- The second bias's block at (0, q) is b2 at q. -/
theorem b2blk_apply (t : Fin cfg0.N) (q : Fin 128) : b2blk m c t (ix2 (0 : Fin 1) q) = aB2 m c (ix1 q) := by
  obtain ⟨h0, h1⟩ := idx4 t
  unfold b2blk iblk
  rw [View.read_apply]
  show V m c main_call0_v1 _ = m ((c.tc : Thread nD τ).loc main_arg5) _
  rw [V_v1]
  refine shapeCast_apply _ _ _ (ix1 q) ?_
  rw [Shape.rowMajor_val_one, Shape.rowMajor_val_two]
  show q.val = (win0_4.index t 0 * 1 + 1 * 0) * 128 + (win0_4.index t 1 * 128 + 1 * q.val)
  rw [h0, h1]; omega

/-- Row `r` of the adjacency's block at point `t` is row 400 · (the block index at `t`) + r of the adjacency. -/
theorem ablk_apply (t : Fin cfg0.N) (r : Fin 400) (l : Fin 10000) (k : Fin 10000)
    (hk : k.val = 400 * (if t.val < 25 then t.val else 49 - t.val) + r.val) :
    ablk m c t (ix2 r l) = aAdj m c (ix2 k l) := by
  obtain ⟨h0, h1⟩ := idx5 t
  unfold ablk iblk
  rw [View.read_apply]
  show V m c main_arg1 _ = m ((c.tc : Thread nD τ).loc main_arg1) _
  rw [V_main_arg1]
  congr 1
  funext a
  apply Fin.ext
  match a with
  | ⟨0, _⟩ => show win0_5.index t 0 * 400 + 1 * r.val = k.val; rw [h0, hk]; omega
  | ⟨1, _⟩ => show win0_5.index t 1 * 10000 + 1 * l.val = l.val; rw [h1]; omega

/-! ### The three carried values as the specification's sums -/

/-- The first scratch is y = x · W1ᵀ. -/
theorem yv_apply (l : Fin 10000) (j : Fin 128) :
    yv (F := Ideal) m c (ix2 l j) = Cert.Spec.y (aX m c) (aW1 m c) l j := by
  refine (pay1_apply (xblk m c t0) (w1blk m c t0) l j).trans ?_
  unfold Cert.Spec.y
  refine Finset.sum_congr rfl fun p _ => ?_
  rw [xblk_apply, w1blk_apply]

/-- The second scratch is g: row `k` is row k % 400 of block k / 400, whose adjacency rows start at 400 (k / 400). -/
theorem gArr_apply (k : Fin 10000) (q : Fin 128) :
    gArr (F := Ideal) m c (ix2 k q) = Cert.Spec.g (aX m c) (aAdj m c) (aW1 m c) (aB1 m c) (aW2 m c) k q := by
  have hk : k.val < 10000 := k.isLt
  have hN : k.val / 400 < cfg0.N := by rw [N50]; omega
  refine (pay2_apply (ablk m c ⟨k.val / 400, hN⟩) (yv m c) (b1blk m c ⟨k.val / 400, hN⟩) (w2blk m c ⟨k.val / 400, hN⟩)
    ⟨k.val % 400, Nat.mod_lt _ (by omega)⟩ q).trans ?_
  unfold Cert.Spec.g Cert.Spec.h
  refine Finset.sum_congr rfl fun j _ => ?_
  have hs : (∑ l : Fin 10000, ablk m c ⟨k.val / 400, hN⟩ (ix2 (⟨k.val % 400, Nat.mod_lt _ (by omega)⟩ : Fin 400) l)
        * yv (F := Ideal) m c (ix2 l j))
      = ∑ l : Fin 10000, aAdj m c (ix2 k l) * Cert.Spec.y (aX m c) (aW1 m c) l j :=
    Finset.sum_congr rfl fun l _ => by
      rw [ablk_apply m c ⟨k.val / 400, hN⟩ ⟨k.val % 400, Nat.mod_lt _ (by omega)⟩ l k (by
        show k.val = 400 * (if k.val / 400 < 25 then k.val / 400 else 49 - k.val / 400) + k.val % 400
        rw [if_pos (show k.val / 400 < 25 by omega)]; omega), yv_apply]
  rw [hs, b1blk_apply, w2blk_apply]

/-- The result: row `r` is row r % 400 of what point 49 - r / 400 leaves, whose adjacency rows start at 400 (r / 400). -/
theorem outArr_apply (r : Fin 10000) (q : Fin 128) :
    outArr (F := Ideal) m c (ix2 r q)
      = Cert.Spec.out (aX m c) (aAdj m c) (aW1 m c) (aB1 m c) (aW2 m c) (aB2 m c) r q := by
  have hr : r.val < 10000 := r.isLt
  have hN : 49 - r.val / 400 < cfg0.N := by rw [N50]; omega
  refine (pay3_apply (ablk m c ⟨49 - r.val / 400, hN⟩) (gArr m c) (b2blk m c ⟨49 - r.val / 400, hN⟩)
    ⟨r.val % 400, Nat.mod_lt _ (by omega)⟩ q).trans ?_
  unfold Cert.Spec.out
  have hs : (∑ k : Fin 10000, ablk m c ⟨49 - r.val / 400, hN⟩ (ix2 (⟨r.val % 400, Nat.mod_lt _ (by omega)⟩ : Fin 400) k)
        * gArr (F := Ideal) m c (ix2 k q))
      = ∑ k : Fin 10000, aAdj m c (ix2 r k) * Cert.Spec.g (aX m c) (aAdj m c) (aW1 m c) (aB1 m c) (aW2 m c) k q :=
    Finset.sum_congr rfl fun k _ => by
      rw [ablk_apply m c ⟨49 - r.val / 400, hN⟩ ⟨r.val % 400, Nat.mod_lt _ (by omega)⟩ k r (by
        show r.val = 400 * (if 49 - r.val / 400 < 25 then 49 - r.val / 400 else 49 - (49 - r.val / 400)) + r.val % 400
        rw [if_neg (show ¬ 49 - r.val / 400 < 25 by omega)]; omega), gArr_apply]
  rw [hs, b2blk_apply]

end Blocks

theorem outArr_eq [Cert.KernelIdeal.Facts] (m : (ℓ : Loc Cert.KernelIdeal.nD Cert.KernelIdeal.τ Cert.KernelIdeal.sig) → Buf (Elt Ideal) ℓ) (c : Dev Cert.KernelIdeal.nD) :
    Cert.KernelIdeal.Hand.outArr (F := Ideal) m c = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext idx
  obtain ⟨r, q, rfl⟩ : ∃ (r : Fin 10000) (q : Fin 128), idx = ix2 r q := ⟨idx 0, idx 1, eq_ix2 idx⟩
  exact (outArr_apply m c r q).trans rfl

end Cert.KernelBridge

end
-- ==== Proof.RefValue.lean ====
/-
  The reference's run, read as one function of the argument arrays: its result array ends at the reference's
  grouping of the graph convolution (`Cert.Spec.Gref`), the argument arrays unchanged.

  The reference computes, stage by stage,
      adj · x,   relu((adj · x) · W1ᵀ + b1),   adj · (that),   (adj · (that)) · W2ᵀ + b2.
  Each stage is read at one entry `(row, column)`: a matrix product is the finite sum over the contracted
  coordinate, a transposed matrix is read with its coordinates exchanged, a broadcast bias is read at the column,
  the zero of the rectifier is the real number zero. Each stage's entry is stated over the previous stage's, so
  no two whole arrays are ever compared.
-/
import proofs.«150624_g46213848105873_cont_8to1_c_498_8_alg».proof.Proof.Spec
import proofs.«150624_g46213848105873_cont_8to1_c_498_8_alg».proof.Proof.Gen.ReferenceIdeal
import proofs.«150624_g46213848105873_cont_8to1_c_498_8_alg».proof.Proof.Gen.ReferenceIdeal.Run
import proofs.«150624_g46213848105873_cont_8to1_c_498_8_alg».proof.Proof.Gen.ReferenceIdeal.Read

noncomputable section

namespace Cert.RefBridge

open Idealize.ShloMosaic Idealize.ShloMosaic.TcCoe Idealize.SL.Sem Idealize.ShloMosaic.ValueIdx

open Cert.ReferenceIdeal

/-! ### The argument arrays -/

variable (x : (⟨S10000x128, .f32⟩ : BufTy).Contents (Elt Ideal)) (adj : (⟨S10000x10000, .f32⟩ : BufTy).Contents (Elt Ideal))
  (W1 : (⟨S128x128, .f32⟩ : BufTy).Contents (Elt Ideal)) (b1 : (⟨S128, .f32⟩ : BufTy).Contents (Elt Ideal))
  (W2 : (⟨S128x128, .f32⟩ : BufTy).Contents (Elt Ideal)) (b2 : (⟨S128, .f32⟩ : BufTy).Contents (Elt Ideal))

/-! ### Where each stage reads its operands: the composed index maps at an entry `(row, column)` -/

/-- A product with `adj` on the left reads `adj` at (row, contracted coordinate). -/
theorem adj_at_v0 (k : Fin 10000) (p : Fin 128) (l : Fin 10000) : Read.lidx_main_v0 (ix2 k p) l = ix2 k l :=
  funext fun a => Fin.ext (by match a with | ⟨0, _⟩ => rfl | ⟨1, _⟩ => rfl)
/-- … and its right factor at (contracted coordinate, column). -/
theorem x_at_v0 (k : Fin 10000) (p : Fin 128) (l : Fin 10000) : Read.ridx_main_v0 (ix2 k p) l = ix2 l p :=
  funext fun a => Fin.ext (by match a with | ⟨0, _⟩ => rfl | ⟨1, _⟩ => rfl)

/-- adj · x at an entry is the aggregated feature. -/
theorem aggregated_at (k : Fin 10000) (p : Fin 128) :
    Read.val_main_v0 (F := Ideal) x adj (ix2 k p) = Cert.Spec.ax x adj k p := by
  rw [Read.val_main_v0_apply]
  unfold Cert.Spec.ax
  refine Finset.sum_congr rfl fun l _ => ?_
  rw [adj_at_v0, x_at_v0]

/-! ### The hidden layer -/

/-- The projection reads the aggregated features at (row, contracted coordinate) … -/
theorem ax_at_v2 (k : Fin 10000) (j : Fin 128) (p : Fin 128) : Read.lidx_main_v2 (ix2 k j) p = ix2 k p :=
  funext fun a => Fin.ext (by match a with | ⟨0, _⟩ => rfl | ⟨1, _⟩ => rfl)
/-- … and the transposed first weight at (contracted coordinate, column): the weight itself at (column, contracted coordinate). -/
theorem W1_at_v2 (k : Fin 10000) (j : Fin 128) (p : Fin 128) : Read.idx_main_v1 (Read.ridx_main_v2 (ix2 k j) p) = ix2 j p :=
  funext fun a => Fin.ext (by match a with | ⟨0, _⟩ => rfl | ⟨1, _⟩ => rfl)
/-- The first bias, broadcast along the rows, is read at the column. -/
theorem b1_at_v4 (k : Fin 10000) (j : Fin 128) : Read.idx_main_v3 (Read.idx_main_v4 (ix2 k j)) = ix1 j :=
  funext fun a => Fin.ext (by match a with | ⟨0, _⟩ => rfl)

/-- relu((adj · x) · W1ᵀ + b1) at an entry is the hidden layer. -/
theorem hidden_at (k : Fin 10000) (j : Fin 128) :
    Read.val_main_v7 (F := Ideal) x adj W1 b1 (ix2 k j) = Cert.Spec.h' x adj W1 b1 k j := by
  rw [Read.val_main_v7_apply, Read.val_main_v5_apply, Read.val_main_v2_apply, Read.val_main_v4_apply,
    Read.val_main_v3_apply, Read.val_main_v6_apply, Read.val_main_cst_apply, b1_at_v4]
  simp only [ax_at_v2, aggregated_at, Read.val_main_v1_apply, W1_at_v2, Ideal.addf_def, Ideal.maximumf_def,
    Ideal.ofBits_def, Ideal.ofBits_zero_f32]
  rfl

/-! ### The second aggregation -/

/-- The second product with `adj` reads `adj` at (row, contracted coordinate) … -/
theorem adj_at_v8 (r : Fin 10000) (j : Fin 128) (k : Fin 10000) : Read.lidx_main_v8 (ix2 r j) k = ix2 r k :=
  funext fun a => Fin.ext (by match a with | ⟨0, _⟩ => rfl | ⟨1, _⟩ => rfl)
/-- … and the hidden layer at (contracted coordinate, column). -/
theorem hidden_at_v8 (r : Fin 10000) (j : Fin 128) (k : Fin 10000) : Read.ridx_main_v8 (ix2 r j) k = ix2 k j :=
  funext fun a => Fin.ext (by match a with | ⟨0, _⟩ => rfl | ⟨1, _⟩ => rfl)

/-- adj · relu(…) at an entry is the aggregated hidden layer. -/
theorem aggregated_hidden_at (r : Fin 10000) (j : Fin 128) :
    Read.val_main_v8 (F := Ideal) x adj W1 b1 (ix2 r j) = Cert.Spec.ah x adj W1 b1 r j := by
  rw [Read.val_main_v8_apply]
  unfold Cert.Spec.ah
  refine Finset.sum_congr rfl fun k _ => ?_
  rw [adj_at_v8, hidden_at_v8, hidden_at]

/-! ### The result -/

/-- The last projection reads the aggregated hidden layer at (row, contracted coordinate) … -/
theorem ah_at_v10 (r : Fin 10000) (q : Fin 128) (j : Fin 128) : Read.lidx_main_v10 (ix2 r q) j = ix2 r j :=
  funext fun a => Fin.ext (by match a with | ⟨0, _⟩ => rfl | ⟨1, _⟩ => rfl)
/-- … and the transposed second weight at (contracted coordinate, column): the weight itself at (column, contracted coordinate). -/
theorem W2_at_v10 (r : Fin 10000) (q : Fin 128) (j : Fin 128) : Read.idx_main_v9 (Read.ridx_main_v10 (ix2 r q) j) = ix2 q j :=
  funext fun a => Fin.ext (by match a with | ⟨0, _⟩ => rfl | ⟨1, _⟩ => rfl)
/-- The second bias, broadcast along the rows, is read at the column. -/
theorem b2_at_v12 (r : Fin 10000) (q : Fin 128) : Read.idx_main_v11 (Read.idx_main_v12 (ix2 r q)) = ix1 q :=
  funext fun a => Fin.ext (by match a with | ⟨0, _⟩ => rfl)

/-- (adj · relu(…)) · W2ᵀ + b2 at an entry is the reference's grouping of the result. -/
theorem result_at (r : Fin 10000) (q : Fin 128) :
    Read.val_main_v13 (F := Ideal) x adj W1 b1 W2 b2 (ix2 r q) = Cert.Spec.out' x adj W1 b1 W2 b2 r q := by
  rw [Read.val_main_v13_apply, Read.val_main_v10_apply, Read.val_main_v12_apply, Read.val_main_v11_apply, b2_at_v12]
  simp only [ah_at_v10, aggregated_hidden_at, Read.val_main_v9_apply, W2_at_v10, Ideal.addf_def]
  rfl

/-- The reference's last stage, as one array, is the reference's grouping. -/
theorem result_eq :
    Read.val_main_v13 (F := Ideal) x adj W1 b1 W2 b2 = Cert.Spec.Gref x adj W1 b1 W2 b2 := by
  funext i
  obtain ⟨r, q, rfl⟩ : ∃ (r : Fin 10000) (q : Fin 128), i = ix2 r q := ⟨i 0, i 1, eq_ix2 i⟩
  rw [result_at]
  rfl

/-! ### The run -/

theorem run [Cert.ReferenceIdeal.Facts] (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v13) = Cert.Spec.Gref (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans ((Read.val_main_v13_eq (F := Ideal) _ _ _ _ _ _).trans (result_eq _ _ _ _ _ _)), (h c).2⟩)
    (Cert.ReferenceIdeal.Value.run (F := Ideal) m ρ)

end Cert.RefBridge

end
-- ==== Proof.SpecLaw.lean ====
/-
  The law that joins the two groupings of the graph convolution: with every entry a real number, the matrix
  product is associative (exchange the two finite sums, distribute the third factor), so the kernel's grouping and
  the reference's give the same array.
-/
import proofs.«150624_g46213848105873_cont_8to1_c_498_8_alg».proof.Proof.Spec
import Mathlib.Data.EReal.Basic
import Mathlib.Algebra.BigOperators.Ring.Finset
import Mathlib.Tactic.Ring

noncomputable section

namespace Cert.Spec

open Idealize.ShloMosaic Idealize.ShloMosaic.ValueIdx

/-! ### Two general facts -/

/-- The inclusion of the reals in the extended reals carries a finite sum to the sum of the inclusions
    (it is additive; induct on the index set). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion is monotone, so it carries the larger of two reals to the larger of their inclusions. -/
theorem coe_max (a b : ℝ) : ((max a b : ℝ) : EReal) = max (a : EReal) (b : EReal) :=
  EReal.coe_strictMono.monotone.map_max

/-- Associativity of a row–matrix–column product over the reals:
    Σ_k a_k · (Σ_j b_kj · c_j) = Σ_j (Σ_k a_k · b_kj) · c_j.
    Distribute both ways, exchange the two sums, and reassociate each term. -/
theorem sum_assoc {ι κ : Type*} [Fintype ι] [Fintype κ] (a : ι → ℝ) (b : ι → κ → ℝ) (c : κ → ℝ) :
    ∑ k, a k * (∑ j, b k j * c j) = ∑ j, (∑ k, a k * b k j) * c j := by
  simp_rw [Finset.mul_sum, Finset.sum_mul]
  rw [Finset.sum_comm]
  exact Finset.sum_congr rfl fun j _ => Finset.sum_congr rfl fun k _ => (mul_assoc _ _ _).symm

/-! ### The law -/

theorem law (x : Mat 10000 128) (adj : Mat 10000 10000) (W1 : Mat 128 128) (b1 : Vc 128) (W2 : Mat 128 128) (b2 : Vc 128)
    (hx : Real x) (hadj : Real adj) (hW1 : Real W1) (hb1 : Real b1) (hW2 : Real W2) (hb2 : Real b2) :
    G x adj W1 b1 W2 b2 = Gref x adj W1 b1 W2 b2 := by
  -- Name the real entries.
  choose xr hxr using hx
  choose ar har using hadj
  choose w1 hw1 using hW1
  choose c1 hc1 using hb1
  choose w2 hw2 using hW2
  choose c2 hc2 using hb2
  -- The projected features are real.
  have hy : ∀ l j, y x W1 l j = ((∑ p : Fin 128, xr (ix2 l p) * w1 (ix2 j p) : ℝ) : EReal) := by
    intro l j
    rw [coe_sum]
    exact Finset.sum_congr rfl fun p _ => by rw [hxr, hw1, EReal.coe_mul]
  -- The aggregated features are real.
  have hax : ∀ k p, ax x adj k p = ((∑ l : Fin 10000, ar (ix2 k l) * xr (ix2 l p) : ℝ) : EReal) := by
    intro k p
    rw [coe_sum]
    exact Finset.sum_congr rfl fun l _ => by rw [har, hxr, EReal.coe_mul]
  -- The hidden layer, as the kernel groups it, is real.
  have hh : ∀ k j, h x adj W1 b1 k j
      = ((max ((∑ l : Fin 10000, ar (ix2 k l) * (∑ p : Fin 128, xr (ix2 l p) * w1 (ix2 j p))) + c1 (ix1 j)) 0 : ℝ) : EReal) := by
    intro k j
    have e : (∑ l : Fin 10000, adj (ix2 k l) * y x W1 l j)
        = ∑ l : Fin 10000, ((ar (ix2 k l) * ∑ p : Fin 128, xr (ix2 l p) * w1 (ix2 j p) : ℝ) : EReal) :=
      Finset.sum_congr rfl fun l _ => by rw [har, hy, EReal.coe_mul]
    unfold h
    rw [e, hc1, coe_max, EReal.coe_add, coe_sum, EReal.coe_zero]
  -- The hidden layer, as the reference groups it, is real.
  have hh' : ∀ k j, h' x adj W1 b1 k j
      = ((max ((∑ p : Fin 128, (∑ l : Fin 10000, ar (ix2 k l) * xr (ix2 l p)) * w1 (ix2 j p)) + c1 (ix1 j)) 0 : ℝ) : EReal) := by
    intro k j
    have e : (∑ p : Fin 128, ax x adj k p * W1 (ix2 j p))
        = ∑ p : Fin 128, (((∑ l : Fin 10000, ar (ix2 k l) * xr (ix2 l p)) * w1 (ix2 j p) : ℝ) : EReal) :=
      Finset.sum_congr rfl fun p _ => by rw [hax, hw1, EReal.coe_mul]
    unfold h'
    rw [e, hc1, coe_max, EReal.coe_add, coe_sum, EReal.coe_zero]
  -- The two hidden layers agree: associativity of adj · x · W1ᵀ.
  have hhh : ∀ k j, h x adj W1 b1 k j = h' x adj W1 b1 k j := by
    intro k j
    rw [hh, hh', sum_assoc (fun l => ar (ix2 k l)) (fun l p => xr (ix2 l p)) (fun p => w1 (ix2 j p))]
  -- Name the (common) real hidden layer.
  let hr : Fin 10000 → Fin 128 → ℝ := fun k j =>
    max ((∑ p : Fin 128, (∑ l : Fin 10000, ar (ix2 k l) * xr (ix2 l p)) * w1 (ix2 j p)) + c1 (ix1 j)) 0
  have hhr : ∀ k j, h' x adj W1 b1 k j = (hr k j : EReal) := hh'
  -- The second layer, as the kernel groups it.
  have hg : ∀ k q, g x adj W1 b1 W2 k q = ((∑ j : Fin 128, hr k j * w2 (ix2 q j) : ℝ) : EReal) := by
    intro k q
    rw [coe_sum]
    exact Finset.sum_congr rfl fun j _ => by rw [hhh, hhr, hw2, EReal.coe_mul]
  have hout : ∀ r q, out x adj W1 b1 W2 b2 r q
      = (((∑ k : Fin 10000, ar (ix2 r k) * (∑ j : Fin 128, hr k j * w2 (ix2 q j))) + c2 (ix1 q) : ℝ) : EReal) := by
    intro r q
    have e : (∑ k : Fin 10000, adj (ix2 r k) * g x adj W1 b1 W2 k q)
        = ∑ k : Fin 10000, ((ar (ix2 r k) * ∑ j : Fin 128, hr k j * w2 (ix2 q j) : ℝ) : EReal) :=
      Finset.sum_congr rfl fun k _ => by rw [har, hg, EReal.coe_mul]
    unfold out
    rw [e, hc2, EReal.coe_add, coe_sum]
  -- The second layer, as the reference groups it.
  have hah : ∀ r j, ah x adj W1 b1 r j = ((∑ k : Fin 10000, ar (ix2 r k) * hr k j : ℝ) : EReal) := by
    intro r j
    rw [coe_sum]
    exact Finset.sum_congr rfl fun k _ => by rw [har, hhr, EReal.coe_mul]
  have hout' : ∀ r q, out' x adj W1 b1 W2 b2 r q
      = (((∑ j : Fin 128, (∑ k : Fin 10000, ar (ix2 r k) * hr k j) * w2 (ix2 q j)) + c2 (ix1 q) : ℝ) : EReal) := by
    intro r q
    have e : (∑ j : Fin 128, ah x adj W1 b1 r j * W2 (ix2 q j))
        = ∑ j : Fin 128, (((∑ k : Fin 10000, ar (ix2 r k) * hr k j) * w2 (ix2 q j) : ℝ) : EReal) :=
      Finset.sum_congr rfl fun j _ => by rw [hah, hw2, EReal.coe_mul]
    unfold out'
    rw [e, hc2, EReal.coe_add, coe_sum]
  -- The results agree: associativity of adj · h · W2ᵀ.
  funext i
  show out x adj W1 b1 W2 b2 _ _ = out' x adj W1 b1 W2 b2 _ _
  rw [hout, hout', sum_assoc (fun k => ar (ix2 _ k)) (fun k j => hr k j) (fun j => w2 (ix2 _ j))]

end Cert.Spec

end
-- ==== Proof.Finite.lean ====
/-
  From the precondition to the entries: when `finite_inputs` evaluates all ones at the ideal instance, every entry
  of each of the six argument arrays is a real number (|v| < +∞ on the extended reals excludes both infinities).
-/
import proofs.«150624_g46213848105873_cont_8to1_c_498_8_alg».proof.Proof.Spec
import proofs.«150624_g46213848105873_cont_8to1_c_498_8_alg».proof.Pre_finite_inputs
import Idealize.ShloMosaic.Lib.ReduceAll

noncomputable section

namespace Cert.FiniteIn

open Idealize.ShloMosaic Idealize.ShloMosaic.ValueIdx Cert.Spec

/-- The rank-0 index set has one element. -/
local instance : Subsingleton Cert.Pre_finite_inputs.S_.Idx := ⟨fun a b => funext fun d => d.elim0⟩

/-- The pattern 0x7F800000 denotes +∞. -/
theorem ofBits_inf : Ideal.ofBits .f32 0x7F800000#32 = ⊤ := by
  simp [Ideal.ofBits, Ideal.ieee]

/-- One element: an extended real whose absolute value max v (−v) lies strictly below +∞ is a real number,
    since at either infinity the absolute value is +∞ itself. -/
theorem real_of_abs_lt (v : EReal) (hv : Ideal.cmp .olt (max v (-v)) (Ideal.ofBits .f32 0x7F800000#32) = 1#1) :
    ∃ r : ℝ, v = (r : EReal) := by
  rw [ofBits_inf] at hv
  induction v using EReal.rec with
  | bot => simp [Ideal.cmp] at hv
  | top => simp [Ideal.cmp] at hv
  | coe r => exact ⟨r, rfl⟩

/-- One array: if the conjunction over all indices of "|v| < +∞" is one, every entry is a real number. -/
theorem real_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v) (broadcastInDim s ![] hb (constant Cert.Pre_finite_inputs.S_ .f32 0x7F800000#32)))
          (constantI Cert.Pre_finite_inputs.S_ 1 1#1) hr hu ix0 = 1#1) :
    Real v := by
  intro i
  have hi := Host.reduce_andi_all _ _ hr hu ix0 e i
  exact real_of_abs_lt (v i) hi

theorem of_pre [Cert.Pre_finite_inputs.Facts]
    (x : FVec Ideal Cert.Pre_finite_inputs.S10000x128 .f32) (adj : FVec Ideal Cert.Pre_finite_inputs.S10000x10000 .f32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x adj W1 b1 W2 b2 = fun _ => 1#1) :
    Real x ∧ Real adj ∧ Real W1 ∧ Real b1 ∧ Real W2 ∧ Real b2 := by
  -- The predicate at its one index, with the printed chain opened: a conjunction of six "all entries" tests.
  have h0 := congrFun h ValueIdx.ix0
  dsimp only [Cert.Pre_finite_inputs.fn, Cert.Pre_finite_inputs.fn_part1] at h0
  -- Split the conjunction from the outside in.
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e1, e2⟩ := IntOp.andi_eq_one.1 h2
  exact ⟨real_of_all x _ _ _ e1, real_of_all adj _ _ _ e2, real_of_all W1 _ _ _ e3, real_of_all b1 _ _ _ e4,
    real_of_all W2 _ _ _ e5, real_of_all b2 _ _ _ e6⟩

end Cert.FiniteIn

end
-- ==== Proof.lean ====
/-
  The certificate of a two-layer graph convolution over a dense 10000 × 10000 adjacency:
      out = (adj · relu((adj · x) · W1ᵀ + b1)) · W2ᵀ + b2            (the reference),
      out = adj · (relu(adj · (x · W1ᵀ) + b1) · W2ᵀ) + b2            (the kernel),
  equal over the extended reals when every input is finite, by associativity of the matrix product.

  The kernel is ONE region of fifty grid points. Point 0 fills a scratch y = x · W1ᵀ; each point t < 25 reads 400
  rows of the adjacency and stores rows [400 t, 400 t + 400) of a second scratch g = relu(adj · y + b1) · W2ᵀ;
  each point t ≥ 25 reads the adjacency's row block 49 - t and stores that block of adj · g + b2 into the
  output's staging buffer. The output's block index stays 0 below point 25, so point 24 writes block 0 back from
  a buffer the body has not stored into; the last point writes block 0 again, and the array ends right.

  The three frames and the kernel's value come from one run per program over relational proof data: the inputs'
  buffers left as found, the output's buffer named from point 25 on and unconstrained before, the invariant
  carrying y exactly and the rows of g filled so far (Proof/KernelIdeal, and the same text in the word-level
  program's namespace, Proof/Kernel). The result array is then read off the write-backs (Proof/ArrCover.lean,
  Proof/KernelIdeal/OutFinal.lean), each block opened at the ideal instance as finite sums (Proof/KernelPay.lean,
  Proof/KernelValue.lean), the reference's fifteen host operations likewise (Proof/RefValue.lean), and the two
  groupings joined where every entry is a real number (Proof/Spec.lean, Proof/SpecLaw.lean, Proof/Finite.lean).
-/
import proofs.«150624_g46213848105873_cont_8to1_c_498_8_alg».proof.Defs
import proofs.«150624_g46213848105873_cont_8to1_c_498_8_alg».proof.Proof.Gen.Kernel
import proofs.«150624_g46213848105873_cont_8to1_c_498_8_alg».proof.Proof.Gen.KernelIdeal
import proofs.«150624_g46213848105873_cont_8to1_c_498_8_alg».proof.Proof.Gen.ReferenceIdeal
import proofs.«150624_g46213848105873_cont_8to1_c_498_8_alg».proof.Proof.Gen.Pre_finite_inputs
import proofs.«150624_g46213848105873_cont_8to1_c_498_8_alg».proof.Proof.Kernel.Launch
import proofs.«150624_g46213848105873_cont_8to1_c_498_8_alg».proof.Proof.KernelIdeal.RunValue
import proofs.«150624_g46213848105873_cont_8to1_c_498_8_alg».proof.Proof.KernelValue
import proofs.«150624_g46213848105873_cont_8to1_c_498_8_alg».proof.Proof.RefValue
import proofs.«150624_g46213848105873_cont_8to1_c_498_8_alg».proof.Proof.SpecLaw
import proofs.«150624_g46213848105873_cont_8to1_c_498_8_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.RefBridge.run m ρ)

/-- From memories agreeing on the arguments, both idealized programs end with the result array at the kernel's
    grouping of the graph convolution: the kernel by its run, the reference by its own grouping and the law. -/
theorem algebraic : Cert.algebraic_KernelIdeal_ReferenceIdeal := by
  intro m ρ m' ρ' hpre hagree
  refine ⟨fun c => Cert.KernelIdeal.Hand.outArr (F := Ideal) m c, Cert.KernelIdeal.Hand.run_value m ρ, ?_⟩
  refine (θ_run Cert.ReferenceIdeal.defs _ _).mono (fun _ h c => ⟨(h c).1.trans ?_, (h c).2⟩) (Cert.RefBridge.run m' ρ')
  obtain ⟨h0, h1, h2, h3, h4, h5⟩ := hagree c
  rw [h0, h1, h2, h3, h4, h5]
  show _ = Cert.KernelIdeal.Hand.outArr (F := Ideal) m c
  rw [Cert.KernelBridge.outArr_eq m c]
  obtain ⟨hx, hadj, hW1, hb1, hW2, hb2⟩ := Cert.FiniteIn.of_pre _ _ _ _ _ _ (hpre c)
  exact (Cert.Spec.law _ _ _ _ _ _ hx hadj hW1 hb1 hW2 hb2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
